-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S512x256, .f32⟩
  | .local _ .vmem, ⟨0, _⟩ => ⟨S256x256, .f32⟩
  | .local _ .vmem, ⟨1, _⟩ => ⟨S512x256, .f32⟩
  | .local _ .vmem, ⟨2, _⟩ => ⟨S256x256, .bf16⟩
  | .local _ .vmem, ⟨3, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c256_i32 : BitVec 32 := 256#32
  let v17 : BitVec 32 := Scalar.muli v5 c256_i32
  let c0_i32_8 : BitVec 32 := 0#32
  ![v17.toNat, 0]
def k0_dev2 (d0 : Dev nD) : Nat :=
  let c0_i32_14 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_13 : BitVec 32 := 4#32
  let v25 : BitVec 32 := Scalar.muli v2 c4_i32_13
  let v26 : BitVec 32 := Scalar.addi c0_i32_14 v25
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_15 : BitVec 32 := 2#32
  let v27 : BitVec 32 := Scalar.muli v9 c2_i32_15
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v29 : BitVec 32 := Scalar.muli v8 c1_i32_16
  let v30 : BitVec 32 := Scalar.addi v28 v29
  v30.toNat
def k0_off2 (d0 : Dev nD) : Fin 2 → Nat :=
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_24 v5
  let c256_i32_25 : BitVec 32 := 256#32
  let v40 : BitVec 32 := Scalar.muli v39 c256_i32_25
  let v41 : Index := Scalar.indexCast v40
  let c0_26 : Index := 0#32
  ![v41.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  packedbf16_S256x256_S256x256_0_0 : (Rect.unit (s := S256x256) ![0, 0] S256x256.size inb_S256x256_S256x256_0_0).PackedRows (EltTy.packing .bf16)
  hcc0_scratch2 : 2 + S_.numel ≤ 5
  hcc0_scratch3 : 3 + S_.numel ≤ 5
  hcc0_scratch4 : 4 + S_.numel ≤ 5
  k0_dev1_lt : ∀ d0 : Dev nD, (k0_dev1 d0) < nD
  k0_off1_inb : ∀ d0 : Dev nD, ∀ a, (k0_off1 d0) a + S256x256.size a ≤ S512x256.size a
  k0_dev2_lt : ∀ d0 : Dev nD, (k0_dev2 d0) < nD
  k0_off2_inb : ∀ d0 : Dev nD, ∀ a, (k0_off2 d0) a + S256x256.size a ≤ S512x256.size a
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3
abbrev cc0_scratch4 : DmaSems sig S_ := SemArray.consecutive 4 S_ hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩

abbrev nBuf : Space → Nat
  | .hbm => 1
  | .vmem => 0
  | .smem => 0
  | _ => 0

abbrev bufTy : (tb : Table) → Fin (tcTables nBuf tb) → BufTy
  | .hbm, ⟨0, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Spec.lean ====
/-
  The all-gather along the mesh's second axis, as a pure function of each device's block.

  A device sits at mesh coordinates (x, y, z) and holds rows [256·y, 256·y + 256) of a 512 × 256 array. Its
  partner is the device at (x, 1 − y, z): the map is an involution without fixed points. The kernel leaves a
  device's result buffer holding its own block in the rows of its own half (a local copy) and, in the rows of
  the other half, the partner's block narrowed to bf16 and widened back to f32 (what the remote copy
  delivers). This module names the memory references, the two row ranges and that final contents, and nothing
  else: the protocol, the body and the value lemmas are stated over these names.
-/
import proofs.«900666_g7700000000000667_dist_ag_v7x_xyz2x2x2_y_m256_n256_f32_1_alg».proof.KernelIdeal
import proofs.«900666_g7700000000000667_dist_ag_v7x_xyz2x2x2_y_m256_n256_f32_1_alg».proof.Proof.Gen.KernelIdeal
import proofs.«900666_g7700000000000667_dist_ag_v7x_xyz2x2x2_y_m256_n256_f32_1_alg».proof.Proof.Gen.KernelIdeal.Skeleton

noncomputable section

namespace Cert.KernelIdeal.Spec

open Cert.KernelIdeal Cert.KernelIdeal.Gen
open Idealize.ShloMosaic Idealize.ShloMosaic.TcCoe Idealize.SL.Sem

variable {F : FTy → Type} [FloatOps F]

/-- The partner of a device: the other position along the second mesh axis. -/
def peer (c : Dev nD) : Dev nD := ⟨k0_dev2 c, k0_dev2_lt c⟩

theorem peer_peer (c : Dev nD) : peer (peer c) = c := by revert c; decide +kernel
theorem peer_ne (c : Dev nD) : peer c ≠ c := by revert c; decide +kernel
theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := rfl

/-- The staged input block, the staged result, the bf16 buffer sent from and the bf16 buffer received into. -/
abbrev xM : Memref sig .tc .vmem S256x256 .f32 := Memref.whole cc0_stg0_0
abbrev oM : Memref sig .tc .vmem S512x256 .f32 := Memref.whole cc0_stg1_0
abbrev sM : Memref sig .tc .vmem S256x256 .bf16 := Memref.whole cc0_scratch0
abbrev rM : Memref sig .tc .vmem S256x256 .bf16 := Memref.whole cc0_scratch1

/-- The rows of the result that hold the device's own block, and the rows that hold its partner's. -/
abbrev ownR (c : Dev nD) : Rect S512x256 := Rect.unit (s := S512x256) (k0_off1 c) S256x256.size (k0_off1_inb c)
abbrev gotR (c : Dev nD) : Rect S512x256 := Rect.unit (s := S512x256) (k0_off2 c) S256x256.size (k0_off2_inb c)

/-- The result buffer restricted to the device's own rows: the destination of the local copy. -/
abbrev ownM (c : Dev nD) : Memref sig .tc .vmem S256x256 .f32 := oM.slice (ownR c) (fun _ => rfl)

/-- Some contents of the result buffer, fixed once: what stands under the two writes of `gathered` when no
    particular earlier contents are meant (both halves are written over, so it is never read). -/
def anyBase (x : (cc0_stg0_0 : Ref sig .tc).ty.Contents (Elt F)) : (cc0_stg1_0 : Ref sig .tc).ty.Contents (Elt F) :=
  fun _ => x (fun a => ⟨0, by fin_cases a <;> decide⟩)

/-- What the remote copy carries: a block narrowed to bf16. -/
def narrowed (x : (cc0_stg0_0 : Ref sig .tc).ty.Contents (Elt F)) : (cc0_scratch0 : Ref sig .tc).ty.Contents (Elt F) := k0_pay2 x

/-- The result buffer once both halves are written over contents `base`: the own rows hold the block `x`, the
    other rows the partner's block `xp` narrowed and widened back. -/
def gathered (c : Dev nD) (x xp : (cc0_stg0_0 : Ref sig .tc).ty.Contents (Elt F))
    (base : (cc0_stg1_0 : Ref sig .tc).ty.Contents (Elt F)) : (cc0_stg1_0 : Ref sig .tc).ty.Contents (Elt F) :=
  (oM.access (gotR c) : View sig .tc _ _ _).write (Elt F)
    ((ownM c).view.write (Elt F) base ((xM : Memref sig .tc .vmem S256x256 .f32).view.read (Elt F) x) Finset.univ)
    (k0_pay1 (narrowed xp)) Finset.univ

end Cert.KernelIdeal.Spec

end
-- ==== Proof.Protocol.lean ====
/-
  The protocol of the all-gather along the second mesh axis, under the rounds discipline.

  Every device has four cells, each with ONE duty in round 0 and none later:
  * its barrier cell (the runtime's barrier semaphore of collective id 0), one unit, paid by its partner's entry
    signal, which hands over the partner's bf16 landing buffer and that the partner has reached round 0 of its
    receive cell — what the remote copy into the partner needs;
  * its send cell, the credit of a 256 × 256 bf16 block, paid by its own remote copy once the source is read:
    the source buffer comes back holding the device's block narrowed to bf16;
  * its receive cell, the same credit, paid by the partner's remote copy once it has landed: the landing buffer
    holds the partner's block narrowed to bf16;
  * its copy cell, the credit of a 256 × 256 f32 block, paid by its own local copy: the own rows of the result
    buffer hold the device's block, and the half share of the staged input lent to the copy comes back.
  At launch a device owes its partner one barrier unit and one receive credit. Barrier cells sit at level 1,
  receive cells at level 2, everything else at level 0: a device waits on its barrier owing only a receive
  credit, and on its send, receive and copy cells owing nothing.
-/
import proofs.«900666_g7700000000000667_dist_ag_v7x_xyz2x2x2_y_m256_n256_f32_1_alg».proof.Proof.Spec
import proofs.«900666_g7700000000000667_dist_ag_v7x_xyz2x2x2_y_m256_n256_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Protocol

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, side by side -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The partner map as a permutation of the devices. -/
def pair : Dev nD ≃ Dev nD := ⟨peer, peer, peer_peer, peer_peer⟩

/-! ## The cells -/

abbrev barS : Sem sig := (SemArray.scalar (sig.barrier 0 rfl) : Sems sig S_).sem
abbrev sendS : DmaSems sig S_ := cc0_scratch2
abbrev recvS : DmaSems sig S_ := cc0_scratch3
abbrev copyS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev copyCell (c : Dev nD) : GSem nD τ sig := ((c : Thread nD τ), .dma copyS.sem)

/-- The kernel's own (scoped) semaphores: send, receive, copy; -/
abbrev osem : Fin 3 → SemLoc sig := fun | 0 => .dma sendS.sem | 1 => .dma recvS.sem | 2 => .dma copyS.sem
/-- all four of the protocol's: barrier, send, receive, copy. -/
abbrev csem : Fin 4 → SemLoc sig := fun | 0 => .reg barS | 1 => .dma sendS.sem | 2 => .dma recvS.sem | 3 => .dma copyS.sem
abbrev kcell (ck : Dev nD × Fin 4) : GSem nD τ sig := ((ck.1 : Thread nD τ), csem ck.2)

/-- The credit of a bf16 block (the remote copy) and of an f32 block (the local copy). -/
abbrev N : ℕ := (rM : Memref sig .tc .vmem S256x256 .bf16).view.dmaCredit
abbrev Nc : ℕ := (xM : Memref sig .tc .vmem S256x256 .f32).view.dmaCredit
theorem N_pos : 0 < N := View.dmaCredit_pos _ (by decide)
theorem Nc_pos : 0 < Nc := View.dmaCredit_pos _ (by decide)

/-! ## Contents -/

/-- A device's staged input: its block of the array. -/
def xstg (c : Dev nD) : (cc0_stg0_0 : Ref sig .tc).ty.Contents (Elt F) :=
  (win0_0.blk (0 : Fin 1)).view.read (Elt F) ((s₀ m ρ).mem ((c : Thread nD τ).loc main_arg0))

/-- What a device sends: its block narrowed to bf16; what it receives: its partner's. -/
def sent (c : Dev nD) : (cc0_scratch0 : Ref sig .tc).ty.Contents (Elt F) := narrowed (xstg m ρ c)
def landed (c : Dev nD) : Buf (Elt F) ((rM : Memref sig .tc .vmem S256x256 .bf16).view.loc (c : Thread nD τ)) := narrowed (xstg m ρ (peer c))

/-- A device's result: its own block in its own rows, its partner's — narrowed and widened back — in the others. -/
def outAt (c : Dev nD) : (cc0_stg1_0 : Ref sig .tc).ty.Contents (Elt F) :=
  gathered c (xstg m ρ c) (xstg m ρ (peer c)) (anyBase (xstg m ρ c))

def sPts (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{fullShare} f
def rPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f
def xPts (q : PosShare TreeShare) (c : Dev nD) : sProp 𝕄 :=
  (xM : Memref sig .tc .vmem S256x256 .f32).view.loc (c : Thread nD τ) ↦[(xM : Memref sig .tc .vmem S256x256 .f32).view.set]{q} xstg m ρ c
/-- The own rows of the result buffer, holding what the result holds there. -/
def ownPts (c : Dev nD) : sProp 𝕄 :=
  (ownM c).view.loc (c : Thread nD τ) ↦[(ownM c).view.set]{fullShare} outAt m ρ c

omit [FloatOps F] in
instance sPts_storable (c : Dev nD) (f) : BI.Storable (upEmb : UEmb _ 𝕄) (sPts (F := F) c f) := by unfold sPts; infer_instance
omit [FloatOps F] in
instance rPts_storable (c : Dev nD) (f) : BI.Storable (upEmb : UEmb _ 𝕄) (rPts (F := F) c f) := by unfold rPts; infer_instance
instance xPts_storable (q) (c : Dev nD) : BI.Storable (upEmb : UEmb _ 𝕄) (xPts (F := F) m ρ q c) := by unfold xPts; infer_instance
instance ownPts_storable (c : Dev nD) : BI.Storable (upEmb : UEmb _ 𝕄) (ownPts (F := F) m ρ c) := by unfold ownPts; infer_instance

omit [FloatOps F] in
theorem sPts_eq (c : Dev nD) (f : Buf (Elt F) ((c : Thread nD τ).loc cc0_scratch0)) :
    sPts c f = (((c : Thread nD τ).loc cc0_scratch0) ↦{fullShare} f : sProp 𝕄) := by unfold sPts; rw [View.set_whole]
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [View.set_whole]
theorem xPts_eq (q) (c : Dev nD) : xPts m ρ q c = (((c : Thread nD τ).loc cc0_stg0_0) ↦{q} xstg m ρ c : sProp 𝕄) := by
  unfold xPts; rw [View.set_whole]

/-! ## The schedule -/

/-- What the partner's entry signal hands a device: the partner's landing buffer and that the partner has reached
    round 0 of its receive cell. -/
def barPay (c : Dev nD) : sProp 𝕄 := iprop((∃ f, rPts (peer c) f) ∗ reached ER (recvCell (peer c)) 0)
def recvPay (c : Dev nD) : sProp 𝕄 := rPts c (landed m ρ c)
def sendPay (c : Dev nD) : sProp 𝕄 := sPts c (sent m ρ c)
def copyPay (c : Dev nD) : sProp 𝕄 := iprop(ownPts m ρ c ∗ xPts m ρ fullShare.left c)

abbrev IsMine (g : GSem nD τ sig) : Prop :=
  g.1.2 = .tc ∧ (g.2 = .reg barS ∨ g.2 = .dma sendS.sem ∨ g.2 = .dma recvS.sem ∨ g.2 = .dma copyS.sem)

/-- One round, round 0, one duty a cell. -/
def gatherRd : Rounds.Schedule (GSem nD τ sig) Unit 𝕄 where
  duties g r := if r = 0 ∧ IsMine g then {()} else ∅
  unitless _ := False
  amount g _ _ := if g.2 = .reg barS then 1 else if g.2 = .dma copyS.sem then Nc else N
  payload g _ _ :=
    if g.2 = .reg barS then barPay g.1.1
    else if g.2 = .dma recvS.sem then recvPay m ρ g.1.1
    else if g.2 = .dma sendS.sem then sendPay m ρ g.1.1
    else if g.2 = .dma copyS.sem then copyPay m ρ g.1.1
    else iprop(emp)
  amount_pos g _ _ _ := by
    by_cases h : g.2 = .reg barS
    · rw [if_pos h]; exact Nat.one_pos
    · rw [if_neg h]
      by_cases h' : g.2 = .dma copyS.sem
      · rw [if_pos h']; exact Nc_pos
      · rw [if_neg h']; exact N_pos

instance gatherRd_payload_storable (g : GSem nD τ sig) (r : ℕ) (d : Unit) :
    BI.Storable (upEmb : UEmb _ 𝕄) ((gatherRd (F := F) m ρ).payload g r d) := by
  show BI.Storable upEmb (if g.2 = .reg barS then barPay g.1.1 else if g.2 = .dma recvS.sem then recvPay m ρ g.1.1
    else if g.2 = .dma sendS.sem then sendPay m ρ g.1.1 else if g.2 = .dma copyS.sem then copyPay m ρ g.1.1 else iprop(emp))
  unfold barPay recvPay sendPay copyPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem copy_ne_bar : (SemLoc.dma copyS.sem : SemLoc sig) ≠ .reg barS := fun h => by cases h
theorem send_ne_recv : (SemLoc.dma sendS.sem : SemLoc sig) ≠ .dma recvS.sem := by decide
theorem send_ne_copy : (SemLoc.dma sendS.sem : SemLoc sig) ≠ .dma copyS.sem := by decide
theorem recv_ne_copy : (SemLoc.dma recvS.sem : SemLoc sig) ≠ .dma copyS.sem := by decide
theorem copy_ne_recv : (SemLoc.dma copyS.sem : SemLoc sig) ≠ .dma recvS.sem := by decide
theorem copy_ne_send : (SemLoc.dma copyS.sem : SemLoc sig) ≠ .dma sendS.sem := by decide

theorem duties_bar : (gatherRd (F := F) m ρ).duties (barCell c) 0 = {()} := by dsimp only [gatherRd]; exact if_pos ⟨rfl, rfl, .inl rfl⟩
theorem duties_send : (gatherRd (F := F) m ρ).duties (sendCell c) 0 = {()} := by dsimp only [gatherRd]; exact if_pos ⟨rfl, rfl, .inr (.inl rfl)⟩
theorem duties_recv : (gatherRd (F := F) m ρ).duties (recvCell c) 0 = {()} := by dsimp only [gatherRd]; exact if_pos ⟨rfl, rfl, .inr (.inr (.inl rfl))⟩
theorem duties_copy : (gatherRd (F := F) m ρ).duties (copyCell c) 0 = {()} := by dsimp only [gatherRd]; exact if_pos ⟨rfl, rfl, .inr (.inr (.inr rfl))⟩
theorem duties_later (g : GSem nD τ sig) : ∀ r, 1 ≤ r → (gatherRd (F := F) m ρ).duties g r = ∅ :=
  fun r hr => by dsimp only [gatherRd]; rw [if_neg fun h => by omega]

theorem amount_bar (d : Unit) : (gatherRd (F := F) m ρ).amount (barCell c) 0 d = 1 := by dsimp only [gatherRd]; exact if_pos rfl
theorem amount_send (d : Unit) : (gatherRd (F := F) m ρ).amount (sendCell c) 0 d = N := by
  dsimp only [gatherRd]; rw [if_neg send_ne_bar, if_neg send_ne_copy]
theorem amount_recv (d : Unit) : (gatherRd (F := F) m ρ).amount (recvCell c) 0 d = N := by
  dsimp only [gatherRd]; rw [if_neg recv_ne_bar, if_neg recv_ne_copy]
theorem amount_copy (d : Unit) : (gatherRd (F := F) m ρ).amount (copyCell c) 0 d = Nc := by
  dsimp only [gatherRd]; rw [if_neg copy_ne_bar, if_pos rfl]

theorem expect_bar : (gatherRd (F := F) m ρ).expect (barCell c) 0 = 1 := by
  unfold Schedule.expect Schedule.amountOf; rw [duties_bar, Finset.sum_singleton, amount_bar]
theorem expect_send : (gatherRd (F := F) m ρ).expect (sendCell c) 0 = N := by
  unfold Schedule.expect Schedule.amountOf; rw [duties_send, Finset.sum_singleton, amount_send]
theorem expect_recv : (gatherRd (F := F) m ρ).expect (recvCell c) 0 = N := by
  unfold Schedule.expect Schedule.amountOf; rw [duties_recv, Finset.sum_singleton, amount_recv]
theorem expect_copy : (gatherRd (F := F) m ρ).expect (copyCell c) 0 = Nc := by
  unfold Schedule.expect Schedule.amountOf; rw [duties_copy, Finset.sum_singleton, amount_copy]

theorem payload_bar (d : Unit) : (gatherRd (F := F) m ρ).payload (barCell c) 0 d = barPay c := by dsimp only [gatherRd]; rw [if_pos rfl]
theorem payload_send (d : Unit) : (gatherRd (F := F) m ρ).payload (sendCell c) 0 d = sendPay m ρ c := by
  dsimp only [gatherRd]; rw [if_neg send_ne_bar, if_neg send_ne_recv, if_pos rfl]
theorem payload_recv (d : Unit) : (gatherRd (F := F) m ρ).payload (recvCell c) 0 d = recvPay m ρ c := by
  dsimp only [gatherRd]; rw [if_neg recv_ne_bar, if_pos rfl]
theorem payload_copy (d : Unit) : (gatherRd (F := F) m ρ).payload (copyCell c) 0 d = copyPay m ρ c := by
  dsimp only [gatherRd]; rw [if_neg copy_ne_bar, if_neg copy_ne_recv, if_neg copy_ne_send, if_pos rfl]

/-- The rest of each cell's round, no duty taken: its one payload. -/
theorem rest_bar : bigSep ((gatherRd (F := F) m ρ).duties (barCell c) 0 \ ∅) (fun d => (gatherRd (F := F) m ρ).payload (barCell c) 0 d) = barPay c := by
  rw [Finset.sdiff_empty, duties_bar, bigSep_singleton, payload_bar]
theorem rest_send : bigSep ((gatherRd (F := F) m ρ).duties (sendCell c) 0 \ ∅) (fun d => (gatherRd (F := F) m ρ).payload (sendCell c) 0 d) = sendPay m ρ c := by
  rw [Finset.sdiff_empty, duties_send, bigSep_singleton, payload_send]
theorem rest_recv : bigSep ((gatherRd (F := F) m ρ).duties (recvCell c) 0 \ ∅) (fun d => (gatherRd (F := F) m ρ).payload (recvCell c) 0 d) = recvPay m ρ c := by
  rw [Finset.sdiff_empty, duties_recv, bigSep_singleton, payload_recv]
theorem rest_copy : bigSep ((gatherRd (F := F) m ρ).duties (copyCell c) 0 \ ∅) (fun d => (gatherRd (F := F) m ρ).payload (copyCell c) 0 d) = copyPay m ρ c := by
  rw [Finset.sdiff_empty, duties_copy, bigSep_singleton, payload_copy]

end Sched

/-! ## What each device owes at launch; the levels -/

/-- A device owes its partner's receive cell a block's credit and its partner's barrier cell one unit; the signal,
    which comes first, peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send, copy) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a cell at level 0 (a staging cell, the send cell, the copy cell) is below everything a device can owe. -/
theorem mayWait_low (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants a device's body opens, under the names the launch allocated them at: its own four, its
    partner's barrier cell (its signal) and receive cell (its remote copy). -/
def invs (K : Dev nD × Fin 4 → ℕ) (c : Dev nD) : sProp 𝕄 :=
  iprop(cellInv ER (gatherRd m ρ) (K (c, 0)) (barCell c) ∗ cellInv ER (gatherRd m ρ) (K (c, 1)) (sendCell c)
    ∗ cellInv ER (gatherRd m ρ) (K (c, 2)) (recvCell c) ∗ cellInv ER (gatherRd m ρ) (K (c, 3)) (copyCell c)
    ∗ cellInv ER (gatherRd m ρ) (K (peer c, 0)) (barCell (peer c)) ∗ cellInv ER (gatherRd m ρ) (K (peer c, 2)) (recvCell (peer c)))

instance invs_persistent (K : Dev nD × Fin 4 → ℕ) (c : Dev nD) : BI.Persistent (invs m ρ K c) := by unfold invs; infer_instance

/-- The ghost state a device starts from: the invariants; its positions at round 0 of its four cells; round 0 reached
    on the cells it pays; the four duty tokens it pays with — its partner's barrier duty and receive duty, its own
    send duty and copy duty. -/
def ghost (K : Dev nD × Fin 4 → ℕ) (c : Dev nD) : sProp 𝕄 :=
  iprop(invs m ρ K c
    ∗ atPos ER (barCell c) 0 ∅ 0 ∗ atPos ER (sendCell c) 0 ∅ 0 ∗ atPos ER (recvCell c) 0 ∅ 0 ∗ atPos ER (copyCell c) 0 ∅ 0
    ∗ reached ER (barCell (peer c)) 0 ∗ reached ER (recvCell (peer c)) 0 ∗ reached ER (sendCell c) 0 ∗ reached ER (recvCell c) 0 ∗ reached ER (copyCell c) 0
    ∗ dutyTok ER (barCell (peer c)) 0 () ∗ dutyTok ER (recvCell (peer c)) 0 () ∗ dutyTok ER (sendCell c) 0 () ∗ dutyTok ER (copyCell c) 0 ())

/-- What a device's body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, sPts c f) ∗ ∃ f, rPts c f)
/-- After the point: the two bf16 buffers at some contents, the three own cells at zero, closed. -/
def Φ₁ (c : Dev nD) : sProp 𝕄 :=
  iprop((∃ f, sPts c f) ∗ (∃ f, rPts c f) ∗ semVal (sendCell c) 0 ∗ semVal (recvCell c) 0 ∗ semVal (copyCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Protocol

end
-- ==== Proof.Gather.lean ====
/-
  The value lemmas of the all-gather along the mesh's second axis.

  The result buffer has 512 rows. A device with second mesh coordinate y writes its own block into rows
  [256·y, 256·y + 256) and its partner's block into rows [256·(1 − y), 256·(1 − y) + 256). The two row ranges are
  disjoint and together they are every row; so, whatever the buffer held before, each element of the final
  contents is decided by exactly one of the two writes. With ideal arithmetic a change of float format is the
  identity, and the two blocks, laid at their row offsets, are the whole array again.
-/
import proofs.«900666_g7700000000000667_dist_ag_v7x_xyz2x2x2_y_m256_n256_f32_1_alg».proof.Proof.Spec
import Idealize.ShloMosaic.Lib.Pipeline.Value
import Idealize.ShloMosaic.Lib.Layout
import Idealize.ShloMosaic.PureOps.Ideal

noncomputable section

namespace Cert.KernelIdeal.Spec

open Cert.KernelIdeal Cert.KernelIdeal.Gen
open Idealize.ShloMosaic Idealize.ShloMosaic.TcCoe Idealize.SL.Sem

variable {F : FTy → Type} [FloatOps F]

/-- Membership in the own rows, by the row coordinate alone: the column range is every column. -/
theorem mem_ownR (c : Dev nD) (i : S512x256.Idx) :
    i ∈ (ownR c).set ↔ 256 * ((c.val / 2) % 2) ≤ (i 0).val ∧ (i 0).val < 256 * ((c.val / 2) % 2) + 256 := by
  rw [Rect.mem_set_unit, Fin.forall_fin_two, k0_off1_eq]
  have h1 : (i 1).val < 256 := (i 1).isLt
  simp only [Matrix.cons_val_zero, Matrix.cons_val_one]
  omega

/-- Membership in the partner's rows, likewise. -/
theorem mem_gotR (c : Dev nD) (i : S512x256.Idx) :
    i ∈ (gotR c).set ↔
      256 - 256 * ((c.val / 2) % 2) ≤ (i 0).val ∧ (i 0).val < 256 - 256 * ((c.val / 2) % 2) + 256 := by
  rw [Rect.mem_set_unit, Fin.forall_fin_two, k0_off2_eq]
  have h1 : (i 1).val < 256 := (i 1).isLt
  simp only [Matrix.cons_val_zero, Matrix.cons_val_one]
  omega

/-- The elements under the two views are the two rectangles' elements. -/
theorem set_ownM (c : Dev nD) : (ownM c).view.set = (ownR c).set := View.set_slice_whole cc0_stg1_0 (ownR c)

theorem set_gotV (c : Dev nD) : (oM.access (gotR c) : View sig .tc _ _ _).set = (gotR c).set :=
  View.set_slice_whole cc0_stg1_0 (gotR c)

/-- The two row ranges are disjoint: with y the device's second coordinate, [256·y, 256·y + 256) and
    [256 − 256·y, 512 − 256·y) share no row for y = 0 and for y = 1. -/
theorem got_subset (c : Dev nD) :
    (oM.access (gotR c) : View sig .tc _ _ _).set ⊆ Finset.univ \ (ownM c).view.set := by
  intro i hi
  rw [set_gotV, mem_gotR] at hi
  rw [Finset.mem_sdiff, set_ownM, mem_ownR]
  have hy : (c.val / 2) % 2 < 2 := Nat.mod_lt _ (by decide)
  exact ⟨Finset.mem_univ i, by omega⟩

/-- Together they are every row: a row below 512 outside the one range lies in the other. -/
theorem rows_cover (c : Dev nD) :
    Finset.univ \ (ownM c).view.set ⊆ (oM.access (gotR c) : View sig .tc _ _ _).set := by
  intro i hi
  rw [Finset.mem_sdiff, set_ownM, mem_ownR] at hi
  rw [set_gotV, mem_gotR]
  have hy : (c.val / 2) % 2 < 2 := Nat.mod_lt _ (by decide)
  have h0 : (i 0).val < 512 := (i 0).isLt
  omega

/-- On the own rows the local copy decides: the later write through the partner's rows does not reach them, and
    the local copy's payload overwrites whatever stood there. -/
theorem own_rows (c : Dev nD) (x xp : (cc0_stg0_0 : Ref sig .tc).ty.Contents (Elt F))
    (base g : (cc0_stg1_0 : Ref sig .tc).ty.Contents (Elt F)) (i) (hi : i ∈ (ownM c).view.set) :
    (ownM c).view.write (Elt F) g ((xM : Memref sig .tc .vmem S256x256 .f32).view.read (Elt F) x) Finset.univ i
      = gathered c x xp base i := by
  have hn : i ∉ (oM.access (gotR c) : View sig .tc _ _ _).setOn Finset.univ := fun h =>
    (Finset.mem_sdiff.mp (got_subset c h)).2 hi
  unfold gathered
  rw [View.write_of_not_mem _ _ _ hn]
  obtain ⟨y, rfl⟩ := View.exists_emb_of_mem_set _ hi
  rw [View.write_emb_of_mem _ _ (Finset.mem_univ y), View.write_emb_of_mem _ _ (Finset.mem_univ y)]

/-- On every other row the remote copy decides: those rows are the partner's rows, written last. -/
theorem got_rows (c : Dev nD) (x xp : (cc0_stg0_0 : Ref sig .tc).ty.Contents (Elt F))
    (base g : (cc0_stg1_0 : Ref sig .tc).ty.Contents (Elt F)) (i) (hi : i ∈ Finset.univ \ (ownM c).view.set) :
    (oM.access (gotR c) : View sig .tc _ _ _).write (Elt F) g (k0_pay1 (narrowed xp)) Finset.univ i
      = gathered c x xp base i := by
  obtain ⟨y, rfl⟩ := View.exists_emb_of_mem_set _ (rows_cover c hi)
  unfold gathered
  rw [View.write_emb_of_mem _ _ (Finset.mem_univ y), View.write_emb_of_mem _ _ (Finset.mem_univ y)]

/-- With ideal arithmetic narrowing a block to bf16 and widening it back changes nothing. -/
theorem pay1_narrowed_ideal (xp : (cc0_stg0_0 : Ref sig .tc).ty.Contents (Elt Ideal)) :
    k0_pay1 (F := Ideal) (narrowed xp) = xp := by
  funext y
  simp only [k0_pay1, narrowed, k0_pay2, extf, truncf, shapeCast_self, Ideal.extf_def, Ideal.truncf_def]

/-- The block a device holds is the one at its second mesh coordinate along the rows, -/
theorem meshBlock_row (c : Dev nD) :
    ((Layout.meshBlock [2, 2, 2] ![[1], []] c) 0).val = (c.val / 2) % 2 := by
  revert c; decide

/-- and the only one along the columns. -/
theorem meshBlock_col (c : Dev nD) : ((Layout.meshBlock [2, 2, 2] ![[1], []] c) 1).val = 0 := rfl

/-- The partner's second mesh coordinate is the other one. -/
theorem peer_row (c : Dev nD) : ((peer c).val / 2) % 2 = 1 - (c.val / 2) % 2 := by
  revert c; decide +kernel

/-- The two blocks, each laid at its row offset, are the whole array: row i of the whole lies in block i / 256 at
    row i % 256, the device's own block is block y and its partner's block 1 − y, and at ideal arithmetic the
    partner's block arrives unchanged. -/
theorem gathered_whole (c : Dev nD) (X : (⟨2, ![512, 256]⟩ : Shape).Idx → Elt Ideal .f32)
    (base : (cc0_stg1_0 : Ref sig .tc).ty.Contents (Elt Ideal)) :
    gathered (F := Ideal) c
      (Layout.blockN ⟨2, ![256, 256]⟩ ⟨2, ![512, 256]⟩ (Layout.meshBlock [2, 2, 2] ![[1], []] c) X)
      (Layout.blockN ⟨2, ![256, 256]⟩ ⟨2, ![512, 256]⟩ (Layout.meshBlock [2, 2, 2] ![[1], []] (peer c)) X)
      base = X := by
  funext i
  have hy : (c.val / 2) % 2 < 2 := Nat.mod_lt _ (by decide)
  by_cases hi : i ∈ (ownM c).view.set
  · rw [← own_rows c _ _ base base i hi]
    obtain ⟨y, rfl⟩ := View.exists_emb_of_mem_set _ hi
    rw [View.write_emb_of_mem _ _ (Finset.mem_univ y)]
    simp only [Memref.view_whole, View.read_whole, Layout.blockN_apply]
    refine (cast_eq _ _).trans (congrArg X ?_)
    funext a; apply Fin.ext
    rw [Layout.TilesN.idx_val]
    show _ = ((ownR c).emb y a).val
    rw [Rect.emb_apply]
    fin_cases a
    · show ((Layout.meshBlock [2, 2, 2] ![[1], []] c) 0).val * 256 + (y 0).val = k0_off1 c 0 + 1 * (y 0).val
      rw [meshBlock_row, k0_off1_eq]
      simp only [Matrix.cons_val_zero]
      omega
    · show ((Layout.meshBlock [2, 2, 2] ![[1], []] c) 1).val * 256 + (y 1).val = k0_off1 c 1 + 1 * (y 1).val
      rw [meshBlock_col, k0_off1_eq]
      simp only [Matrix.cons_val_one, Matrix.cons_val_zero]
      omega
  · have hi' : i ∈ Finset.univ \ (ownM c).view.set := Finset.mem_sdiff.mpr ⟨Finset.mem_univ i, hi⟩
    rw [← got_rows c _ _ base base i hi']
    obtain ⟨y, rfl⟩ := View.exists_emb_of_mem_set _ (rows_cover c hi')
    rw [View.write_emb_of_mem _ _ (Finset.mem_univ y), pay1_narrowed_ideal]
    simp only [Layout.blockN_apply]
    refine (cast_eq _ _).trans (congrArg X ?_)
    funext a; apply Fin.ext
    rw [Layout.TilesN.idx_val]
    show _ = ((gotR c).emb y a).val
    rw [Rect.emb_apply]
    fin_cases a
    · show ((Layout.meshBlock [2, 2, 2] ![[1], []] (peer c)) 0).val * 256 + (y 0).val
        = k0_off2 c 0 + 1 * (y 0).val
      rw [meshBlock_row, peer_row, k0_off2_eq]
      simp only [Matrix.cons_val_zero]
      omega
    · show ((Layout.meshBlock [2, 2, 2] ![[1], []] (peer c)) 1).val * 256 + (y 1).val
        = k0_off2 c 1 + 1 * (y 1).val
      rw [meshBlock_col, k0_off2_eq]
      simp only [Matrix.cons_val_one, Matrix.cons_val_zero]
      omega

/-- info: 'Cert.KernelIdeal.Spec.got_subset' depends on axioms: [propext, Classical.choice, Quot.sound] -/
#guard_msgs in #print axioms got_subset

/-- info: 'Cert.KernelIdeal.Spec.rows_cover' depends on axioms: [propext, Classical.choice, Quot.sound] -/
#guard_msgs in #print axioms rows_cover

/-- info: 'Cert.KernelIdeal.Spec.own_rows' depends on axioms: [propext, Classical.choice, Quot.sound] -/
#guard_msgs in #print axioms own_rows

/-- info: 'Cert.KernelIdeal.Spec.got_rows' depends on axioms: [propext, Classical.choice, Quot.sound] -/
#guard_msgs in #print axioms got_rows

/-- info: 'Cert.KernelIdeal.Spec.gathered_whole' depends on axioms: [propext, Classical.choice, Quot.sound] -/
#guard_msgs in #print axioms gathered_whole

end Cert.KernelIdeal.Spec

end
-- ==== Proof.Body.lean ====
/-
  One device's body, stepped once at a symbolic device, and the pipeline's body obligation from it.

  In program order: the entry signal to the partner's barrier cell hands over the device's own landing buffer; the
  local copy of the staged block into the device's own rows of the result pays the device's own copy duty, with one
  half share of the staged block lent to it while the other half is read; the block is narrowed to bf16 into the send
  buffer; the barrier wait brings the partner's landing buffer; the remote copy pays the device's own send duty and
  the partner's receive duty; the send wait returns the send buffer, the receive wait the landing buffer holding the
  partner's narrowed block; that block, widened back, is stored into the other rows of the result; the copy wait
  returns the own rows holding the block, and the lent half share. The two row ranges are disjoint and cover the
  buffer, so the result buffer holds `outAt` whatever it held before.
-/
import proofs.«900666_g7700000000000667_dist_ag_v7x_xyz2x2x2_y_m256_n256_f32_1_alg».proof.Proof.Protocol
import proofs.«900666_g7700000000000667_dist_ag_v7x_xyz2x2x2_y_m256_n256_f32_1_alg».proof.Proof.Gather

noncomputable section

namespace Cert.KernelIdeal.Body

open Cert.KernelIdeal Cert.KernelIdeal.Gen Cert.KernelIdeal.Spec Cert.KernelIdeal.Protocol

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 4 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ (∃ f, sPts c f) ∗ ∃ f, rPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

theorem landed_peer (c : Dev nD) : landed m ρ (peer c) = sent m ρ c := by unfold landed sent; rw [peer_peer]
theorem payload_bar' (c : Dev nD) (d : Unit) : (gatherRd (F := F) m ρ).payload (barCell c) 0 d
    = iprop((∃ f, ((rM : Memref sig .tc .vmem S256x256 .bf16).view.loc (peer c : Thread nD τ) ↦[(rM : Memref sig .tc .vmem S256x256 .bf16).view.set]{fullShare} f)) ∗ reached ER (recvCell (peer c)) 0) := by
  rw [payload_bar]; rfl
theorem payload_send' (c : Dev nD) (d : Unit) : (gatherRd (F := F) m ρ).payload (sendCell c) 0 d
    = ((sM : Memref sig .tc .vmem S256x256 .bf16).view.loc (c : Thread nD τ) ↦[(sM : Memref sig .tc .vmem S256x256 .bf16).view.set]{fullShare} sent m ρ c) := by
  rw [payload_send]; rfl
theorem payload_recv' (c : Dev nD) (d : Unit) : (gatherRd (F := F) m ρ).payload (recvCell c) 0 d
    = ((rM : Memref sig .tc .vmem S256x256 .bf16).view.loc (c : Thread nD τ) ↦[(rM : Memref sig .tc .vmem S256x256 .bf16).view.set]{fullShare} landed m ρ c) := by
  rw [payload_recv]; rfl

theorem payload_bar_peer (c : Dev nD) (d : Unit) : (gatherRd (F := F) m ρ).payload (barCell (peer c)) 0 d
    = iprop((∃ f, ((rM : Memref sig .tc .vmem S256x256 .bf16).view.loc (c : Thread nD τ) ↦[(rM : Memref sig .tc .vmem S256x256 .bf16).view.set]{fullShare} f)) ∗ reached ER (recvCell c) 0) := by
  rw [payload_bar]; unfold barPay; rw [peer_peer]; rfl
theorem payload_recv_peer (c : Dev nD) (d : Unit) : (gatherRd (F := F) m ρ).payload (recvCell (peer c)) 0 d
    = ((rM : Memref sig .tc .vmem S256x256 .bf16).view.loc (peer c : Thread nD τ) ↦[(rM : Memref sig .tc .vmem S256x256 .bf16).view.set]{fullShare} sent m ρ c) := by
  rw [payload_recv, ← landed_peer]; rfl

attribute [local sl_rounds 2000] payload_bar_peer payload_recv_peer
attribute [local sl_rounds] peer_peer landed_peer payload_bar' payload_send' payload_recv'
attribute [local sl_canon] peer_peer
attribute [local sl_rounds] duties_bar duties_send duties_recv duties_copy amount_bar amount_send amount_recv amount_copy
  payload_copy expect_bar expect_send expect_recv expect_copy
attribute [local sl_canon] dev1_eq dev2_eq

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f
omit [FloatOps F] in
theorem read_r (f : (cc0_scratch1 : Ref sig .tc).ty.Contents (Elt F)) : (rM : Memref sig .tc .vmem S256x256 .bf16).view.readAt (Elt F) r0.toLoadRect f = f :=
  Memref.readAt_unit_zero (Elt F) cc0_scratch1 hz _ f
omit [FloatOps F] in
theorem write_s (f w : (cc0_scratch0 : Ref sig .tc).ty.Contents (Elt F)) :
    ((sM : Memref sig .tc .vmem S256x256 .bf16).access r0 : View sig .tc _ _ _).write (Elt F) f w Finset.univ = w :=
  Memref.write_access_unit_zero_univ (Elt F) cc0_scratch0 hz _ f w

/-- What the local copy's landing delivers makes the copy duty's payload: on the own rows the copied block is what the
    result holds there, whatever the buffer held before. -/
theorem copy_pays (c : Dev nD) (g : Buf (Elt F) ((ownM c).view.loc (c : Thread nD τ))) :
    iprop(((ownM c).view.loc (c : Thread nD τ) ↦[(ownM c).view.set]{fullShare}
          ((ownM c).view.write (Elt F) g ((xM : Memref sig .tc .vmem S256x256 .f32).view.read (Elt F) (xstg m ρ c)) Finset.univ))
        ∗ ((xM : Memref sig .tc .vmem S256x256 .f32).view.loc (c : Thread nD τ) ↦[(xM : Memref sig .tc .vmem S256x256 .f32).view.set]{fullShare.left} xstg m ρ c))
      ⊢ (gatherRd (F := F) m ρ).payload (copyCell c) 0 () := by
  rw [payload_copy]; unfold copyPay ownPts xPts outAt
  rw [pointsTo_congr (fun i hi => own_rows c (xstg m ρ c) (xstg m ρ (peer c)) (anyBase (xstg m ρ c)) g i hi)]

omit [FloatOps F] in
/-- A whole bf16 buffer written over with the whole of another holds what that one held. -/
theorem landed_eq (c : Dev nD) (fd : Buf (Elt F) ((rM : Memref sig .tc .vmem S256x256 .bf16).view.loc (c : Thread nD τ))) (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

/-- The remote copy: the send duty of the device's own send cell and the receive duty of its partner's receive cell,
    the device addressed substituted by the partner. -/
theorem send_to_peer (c n : Dev nD) (hn : n = peer c) {hsc : (rM : Memref sig (Dev.tc n : Thread nD τ).2.kind .vmem S256x256 .bf16).view.ref.isScScratch = false}
    {hsrc : (sM : Memref sig .tc .vmem S256x256 .bf16).view.WordExact} {hdst : (rM : Memref sig .tc .vmem S256x256 .bf16).view.WordExact}
    {hsem : DmaTarget.Typed .vmem (.dma recvS.sem) (.remote (Dev.tc n : Thread nD τ) (rM : Memref sig .tc .vmem S256x256 .bf16) (.dma sendS.sem) hsc)}
    {α : Type} {Q : α → sProp 𝕄} {k : PUnit → Prog (TpuEff nD τ sig (Elt F) Λ₀ .tc) α}
    (fn : Buf (Elt F) ((rM : Memref sig .tc .vmem S256x256 .bf16).view.loc (peer c : Thread nD τ))) (W : Waits sig Unit) :
    iprop(cellInv ER (gatherRd m ρ) (K (c, 1)) (sendCell c) ∗ cellInv ER (gatherRd m ρ) (K (peer c, 2)) (recvCell (peer c))
        ∗ ((sM : Memref sig .tc .vmem S256x256 .bf16).view.loc (c : Thread nD τ) ↦[(sM : Memref sig .tc .vmem S256x256 .bf16).view.set]{fullShare} sent m ρ c)
        ∗ ((rM : Memref sig .tc .vmem S256x256 .bf16).view.loc (peer c : Thread nD τ) ↦[(rM : Memref sig .tc .vmem S256x256 .bf16).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  exact Rounds.wp_send_pointsTo 𝒱₀ ER (gatherRd m ρ) (c : Thread nD τ) none (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay sPts; exact BI.Entails.refl _)
    (by rw [payload_recv]; unfold recvPay rPts; rw [landed_eq, landed_peer])

theorem x_raw (q : PosShare TreeShare) (c : Dev nD) :
    ((xM : Memref sig .tc .vmem S256x256 .f32).view.loc (c : Thread nD τ) ↦[(xM : Memref sig .tc .vmem S256x256 .f32).view.set]{q} xstg m ρ c : sProp 𝕄)
      = (((c : Thread nD τ).loc cc0_stg0_0) ↦{q} xstg m ρ c : sProp 𝕄) := by rw [View.set_whole]

attribute [local irreducible] peer

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, Prog.bind_assoc, wp_deviceId]
  unfold bodyPre Protocol.ghost Protocol.invs
  iintro ⟨⟨⟨⟨⟨#HIbar, #HIsnd, #HIrcv, #HIcpy, #HIbarP, #HIrcvP⟩, HatB, HatS, HatV, HatC, #HrBP, #HrVP, #HrS, #HrV, #HrC, HtBP, HtVP, HtS, HtC⟩,
      HcB, HcV, #Hlev, ⟨%fs0, Hs⟩, ⟨%fr0, Hr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave Hx' := (Entails.of_eq (xPts_eq m ρ fullShare c).symm) $$ Hx
  unfold xPts sPts rPts
  sl_exec
  -- the staged block in two half shares: one lent to the local copy, one kept to read
  ihave Hx2 := (pointsTo_share (PosShare.mem_left_op_right fullShare)).1 $$ Hx'
  icases Hx2 with ⟨HxL, HxR⟩
  -- the result buffer cut into the own rows and the rest
  ihave Ho2 := (pointsTo_split_subset (I := (ownM c).view.set) (Finset.subset_univ _)).1 $$ Hout
  icases Ho2 with ⟨HoA, HoB⟩
  -- the local copy: the copy duty of the device's own copy cell
  iapply (Rounds.wp_copy_pointsTo 𝒱₀ ER (gatherRd m ρ) (c : Thread nD τ) none (src := xM) (dst := ownM c) (κ := K (c, 3)) (r := 0) (d := ())
      (q := fullShare.left) (fs := xstg m ρ c) (fd := g1)
      (by rw [duties_copy]; exact Finset.mem_singleton_self _) () Nc rfl (amount_copy m ρ c ()) (copy_pays m ρ c g1)) $$ [HxL HoA HtC]
  · isplitr; · iexact HIcpy
    isplitl [HxL]; · iexact HxL
    isplitl [HoA]; · iexact HoA
    isplitl [HtC]; · iexact HtC
    iexact HrC
  iintro HcC
  -- the load of the staged block, through the half share kept
  iapply (wp_load 𝒱₀ (c : Thread nD τ) none Set.univ (m := xM) (by rw [View.set_whole]; exact Finset.subset_univ _)) $$ HxR; iintro HxR
  rw [read_x]
  have hmw := mayWait_bar (F := F) c
  sl_exec (disch := simp only [dev1_eq, dev2_eq])
  -- the send buffer holds the block narrowed
  rw [show (sM : Memref sig .tc .vmem S256x256 .bf16).view.writes (Elt F) fs0 [⟨r0, k0_pay2 (xstg m ρ c)⟩] = sent m ρ c from write_s _ _]
  -- the remote copy into the partner's landing buffer
  iapply (send_to_peer m ρ K c _ (dev2_eq c) HatB_pay1_v (insert (SemLoc.reg barS, ()) W)) $$ [Hs HatB_pay1 HO HtS HtVP]
  · isplitr; · iexact HIsnd
    isplitr; · iexact HIrcvP
    isplitl [Hs]; · iexact Hs
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  sl_exec
  rw [read_r]
  -- the rows of the other half: read (the value is not used) and written with the partner's block widened back
  iapply (wp_load_rect 𝒱₀ (c : Thread nD τ) none Set.univ (m := oM) (r := gotR c) (got_subset c)) $$ HoB; iintro HoB
  iapply (wp_store 𝒱₀ (c : Thread nD τ) none Set.univ (m := oM) (r := gotR c) (Mk := Finset.univ) (got_subset c)) $$ HoB; iintro HoB
  -- the wait on the copy cell: the own rows holding the block, and the lent half share, come back
  iapply (Rounds.wp_wait_rest_token 𝒱₀ ER (gatherRd m ρ) (c : Thread nD τ) none (κ := K (c, 3))
      (wpE_waitDma2_eq 𝒱₀ (c : Thread nD τ) none Set.univ) (Set.mem_univ _) () (O := 0) (R := 0) (m := 0) (T := ∅)
      (by rw [Nat.zero_add, expect_copy])) $$ [HcC HO HatC]
  · isplitr; · iexact HIcpy
    isplitl [HcC]; · iexact HcC
    isplitl [HO]; · iexact HO
    isplitr; · rw [MayWait_zero]; iempintro
    iexact HatC
  iintro ⟨HO, HatC, -, Hpay⟩
  ihave Hp := (Entails.of_eq (rest_copy m ρ c)) $$ Hpay
  unfold copyPay ownPts xPts
  icases Hp with ⟨HoA, HxL⟩
  -- the staged block whole again
  ihave Hx := (pointsTo_share (PosShare.mem_left_op_right fullShare)).2 $$ [HxL HxR]
  · isplitl [HxL] <;> iassumption
  ihave Hx := (Entails.of_eq (x_raw m ρ fullShare c)) $$ Hx
  -- the other rows hold what the result holds there, whatever stood there before; the two parts are the result buffer
  rw [show landed m ρ c = narrowed (xstg m ρ (peer c)) from rfl]
  ihave HoB := (Entails.of_eq (pointsTo_congr (fun i hi => got_rows c (xstg m ρ c) (xstg m ρ (peer c)) (anyBase (xstg m ρ c)) g1 i hi))) $$ HoB
  ihave Hout := (pointsTo_split_subset (ℓ := (c : Thread nD τ).loc cc0_stg1_0) (S := Finset.univ) (q := fullShare) (f := outAt m ρ c)
      (I := (ownM c).view.set) (Finset.subset_univ _)).2 $$ [HoA HoB]
  · isplitl [HoA]; · iexact HoA
    iexact HoB
  -- the three own cells close: their counters at zero are the device's again
  imod (Rounds.cell_close ER (gatherRd m ρ) (Set.mem_univ (K (c, 1))) (fun h => h) (R := 1) (duties_later m ρ (sendCell c))) $$ [HatS] with HzS
  · isplitr; · iexact HIsnd
    iexact HatS
  imod (Rounds.cell_close ER (gatherRd m ρ) (Set.mem_univ (K (c, 2))) (fun h => h) (R := 1) (duties_later m ρ (recvCell c))) $$ [HatV] with HzV
  · isplitr; · iexact HIrcv
    iexact HatV
  imod (Rounds.cell_close ER (gatherRd m ρ) (Set.mem_univ (K (c, 3))) (fun h => h) (R := 0 + 1) (duties_later m ρ (copyCell c))) $$ [HatC] with HzC
  · isplitr; · iexact HIcpy
    iexact HatC
  rw [wp_ret]; imodintro
  iapply Hk
  unfold bodyPost Φ₁ Dat.owesAt Pipeline.owesWithin sPts rPts
  rw [show (dats m ρ 0 c).owed t₀.succ = 0 from rfl]
  isplitl [HatS_pay1 HatV_pay1 HzS HzV HzC]
  · isplitl [HatS_pay1]; · iexists _; iexact HatS_pay1
    isplitl [HatV_pay1]; · iexists _; iexact HatV_pay1
    isplitl [HzS]; · iexact HzS
    isplitl [HzV]; · iexact HzV
    iexact HzC
  isplitl [HO]
  · iexists (insert (SemLoc.dma copyS.sem, ()) (insert (SemLoc.dma recvS.sem, ()) (insert (SemLoc.dma sendS.sem, ()) (insert (SemLoc.reg barS, ()) W))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's body obligation on a device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 cc0_scratch4) (fun _ => bodyPost m ρ c)
  unfold bodyPre' Φ₀ start
  iintro ⟨⟨⟨⟨%K, Hg⟩, Hrest⟩, Hs, Hr⟩, Ho, Hx, Hout⟩
  iapply (sound_body m ρ K c fun _ => bodyPost m ρ c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

/-- info: 'Cert.KernelIdeal.Body.body_obligation' depends on axioms: [propext, Classical.choice, Quot.sound] -/
#guard_msgs in #print axioms body_obligation

end Cert.KernelIdeal.Body

end
-- ==== Proof.Launch.lean ====
/-
  The launch of the all-gather: from each device's body obligation to a run of the whole mesh.

  The four cells of every device are allocated under one update, the barrier cell among them (it is the runtime's
  semaphore, not scoped to the kernel, so its counter at zero arrives with the launch's unscoped semaphores). The
  duty tokens are dealt to the devices that pay them: a device's barrier token and receive token go to its partner,
  its send token and copy token stay. The launch credit of a device is one barrier unit and one receive credit, both
  owed by its partner. The run's post names every window's array after the run.
-/
import proofs.«900666_g7700000000000667_dist_ag_v7x_xyz2x2x2_y_m256_n256_f32_1_alg».proof.Proof.Body

noncomputable section

namespace Cert.KernelIdeal.Launch

open Cert.KernelIdeal Cert.KernelIdeal.Gen Cert.KernelIdeal.Spec Cert.KernelIdeal.Protocol Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def allCells : Finset (GSem nD τ sig) := Finset.univ.map ⟨kcell, kcell_injective⟩

/-- Every cell's one duty token, as minted. -/
abbrev tokOf (ck : Dev nD × Fin 4) : GSem nD τ sig × ℕ × Unit := (kcell ck, 0, ())
theorem tokOf_injective : Function.Injective (tokOf : Dev nD × Fin 4 → GSem nD τ sig × ℕ × Unit) :=
  fun a b h => kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The duty tokens of a device's own cells. -/
def toks (c : Dev nD) : sProp 𝕄 :=
  iprop(dutyTok ER (barCell c) 0 () ∗ dutyTok ER (sendCell c) 0 () ∗ dutyTok ER (recvCell c) 0 () ∗ dutyTok ER (copyCell c) 0 ())

/-- What the launch element deals a device. -/
def G (c : Dev nD) : sProp 𝕄 :=
  iprop((bigSep Finset.univ fun k : Fin 4 => roundState ER (gatherRd m ρ) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 4 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin4]; rfl
  iintro HX
  imod (Rounds.fund ER (gatherRd m ρ) allCells allToks) $$ HX with ⟨Hst, Hr, Hat, Htok⟩
  imodintro
  ihave Hst' := (Entails.of_eq (hX fun g => roundState ER (gatherRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send, receive and copy semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (copyCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HC⟩, HB⟩
  isplitl [HB]; · iexact HB
  isplitl [HS]; · iexact HS
  isplitl [HV] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (gatherRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (gatherRd m ρ) (kcell (c, k)) 0)
      ⊢ (|={Set.univ}=> bigSep Finset.univ fun k => iprop(∃ κ : ℕ, cellInv ER (gatherRd m ρ) κ (kcell (c, k))) : sProp 𝕄) from by
        rw [← bigSep_sep']
        exact (bigSep_mono fun k _ => (Rounds.body_intro ER (gatherRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (gatherRd m ρ) (K ck) (kcell ck))
    ∗ bigSep Finset.univ fun ck : Dev nD × Fin 4 => reached ER (kcell ck) 0)

instance records_persistent (K : Dev nD × Fin 4 → ℕ) : BI.Persistent (records m ρ K) := by unfold records; infer_instance

theorem inv_at (K : Dev nD × Fin 4 → ℕ) (ck : Dev nD × Fin 4) :
    (bigSep Finset.univ fun ck : Dev nD × Fin 4 => (cellInv ER (gatherRd m ρ) (K ck) (kcell ck) : sProp 𝕄)) ⊢ cellInv ER (gatherRd m ρ) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with a device: its positions, and the tokens of the duties it pays. -/
def payToks (c : Dev nD) : sProp 𝕄 :=
  iprop(dutyTok ER (barCell (peer c)) 0 () ∗ dutyTok ER (recvCell (peer c)) 0 () ∗ dutyTok ER (sendCell c) 0 () ∗ dutyTok ER (copyCell c) 0 ())
def linear (c : Dev nD) : sProp 𝕄 :=
  iprop((atPos ER (barCell c) 0 ∅ 0 ∗ atPos ER (sendCell c) 0 ∅ 0 ∗ atPos ER (recvCell c) 0 ∅ 0 ∗ atPos ER (copyCell c) 0 ∅ 0) ∗ payToks c)

theorem ghost_intro (K : Dev nD × Fin 4 → ℕ) (c : Dev nD) : iprop(records m ρ K ∗ linear c) ⊢ G' m ρ c := by
  unfold records linear payToks G' Protocol.ghost Protocol.invs
  iintro ⟨⟨#HI, #HR⟩, ⟨HaB, HaS, HaV, HaC⟩, HtBP, HtVP, HtS, HtC⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitl [HaC]; · iexact HaC
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitr; · iapply (reached_at (F := F) (c, 3)); iexact HR
  isplitl [HtBP]; · iexact HtBP
  isplitl [HtVP]; · iexact HtVP
  isplitl [HtS]; · iexact HtS
  iexact HtC

omit [FloatOps F] in
/-- The tokens dealt across the pairs: a barrier token and a receive token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pair (fun c : Dev nD => (dutyTok ER (barCell c) 0 () : sProp 𝕄)),
    bigSep_univ_equiv pair (fun c : Dev nD => (dutyTok ER (recvCell c) 0 () : sProp 𝕄))]
  iintro ⟨H1, H2, H3, H4⟩
  isplitl [H1]; · iexact H1
  isplitl [H3]; · iexact H3
  isplitl [H2]; · iexact H2
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (gatherRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 4 => iprop(∃ κ : ℕ, cellInv ER (gatherRd m ρ) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (gatherRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hs0⟩, ⟨%g, Hr0⟩⟩
  isplitl [Hs]; · iexact Hs
  isplitl [Hs0]
  · iexists f; rw [sPts_eq]; iexact Hs0
  · iexists g; rw [rPts_eq]; iexact Hr0

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hs0⟩, ⟨%g, Hr0⟩, HzS, HzV, HzC⟩
  isplitr; · iempintro
  isplitl [HzS HzV HzC]
  · isplitl [HzS]; · iexact HzS
    isplitl [HzV] <;> iassumption
  isplitl [Hs0]
  · iexists f; rw [← sPts_eq]; iexact Hs0
  · iexists g; rw [← rPts_eq]; iexact Hr0

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

/-- Every window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the program — the eight kernels shaking hands in pairs on the barrier semaphore, each copying its block
    into its own rows and sending it narrowed to its partner — terminates, and every final state has each device's
    windows' arrays at the computed contents. -/
theorem run_main : θ_run defs (onTc (τ := τ) (main (F := F))) (Protocol.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Launch.run_main' depends on axioms: [propext, Classical.choice, Quot.sound] -/
#guard_msgs in #print axioms run_main

/-- The input array after the run holds what it held. -/
theorem finalA_x (c : Dev nD) : finalA m ρ c (0 : Fin 2) = (Protocol.s₀ m ρ).mem (win0_0.arr.view.loc (c : Thread nD τ)) :=
  (dats (F := F) m ρ 0 c).arrAt_in (0 : Fin 2) rfl _

end Cert.KernelIdeal.Launch

end
-- ==== Proof.Final.lean ====
/-
  What the two windowed arrays hold after the run, read off the pipeline's proof data.

  The pallas_call has no grid: one point, and each window is its whole array as one block at block index 0. The
  input window is never written back, so the device's block of the argument ends as it was at launch. The result
  window is written back at the one point, and that write-back moves the whole staging buffer over the whole
  array: every index of the array lies in the block, and the block read out of any contents of the array is
  those contents. So the result array ends holding exactly what the body left in the staging buffer.
-/
import proofs.«900666_g7700000000000667_dist_ag_v7x_xyz2x2x2_y_m256_n256_f32_1_alg».proof.Proof.Protocol
import proofs.«900666_g7700000000000667_dist_ag_v7x_xyz2x2x2_y_m256_n256_f32_1_alg».proof.Proof.Gen.KernelIdeal.Points
import Idealize.ShloMosaic.Lib.Pipeline.Value

noncomputable section

namespace Cert.KernelIdeal.Final

open Cert.KernelIdeal Cert.KernelIdeal.Gen Cert.KernelIdeal.Spec Cert.KernelIdeal.Protocol

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- An input window's array is never written back: after the run the device's block of the argument holds what it
    held at launch. -/
theorem final_x (c : Dev nD) : (dats m ρ 0 c).arrAt (0 : Fin 2) cfg0.N = m ((c : Thread nD τ).loc main_arg0) :=
  (dats m ρ 0 c).arrAt_in (0 : Fin 2) rfl _

/-- What the body leaves in the result's staging buffer, at any point: the gathered result. -/
theorem after_out (c : Dev nD) (t : Fin cfg0.N) : (dats m ρ 0 c).after (1 : Fin 2) t = outAt m ρ c := by
  unfold dats
  generalize outAt m ρ c = G
  rfl

/-- The window is not cut, so the write-back moves all of the staging buffer: the moved part is the contents
    themselves (an index of the moved part is, coordinate by coordinate, the same index of the block). -/
theorem flushed_out (c : Dev nD) (t : Fin cfg0.N) : (dats m ρ 0 c).flushed (1 : Fin 2) t = outAt m ρ c := by
  funext j
  exact congrFun (after_out m ρ c t) _

/-- The result window's block starts at the array's origin: its block index is zero on both axes. -/
theorem off_zero (t : Fin cfg0.N) : (fun a => win0_1.index t a * win0_1.size a) = fun _ => 0 :=
  funext fun a => Nat.zero_mul _

/-- The block is the whole array: read out of contents `G` of the array it is `G`. -/
theorem read_blk (t : Fin cfg0.N) (G : (cc0_stg1_0 : Ref sig .tc).ty.Contents (Elt F)) :
    View.read (Elt F) ((cfg0.win (1 : Fin 2)).blk t).view G = G :=
  Memref.read_access_unit_zero (Elt F) main_v1 (off_zero t)
    (fun a => by rw [congrFun (off_zero t) a]; exact Nat.le_of_eq (Nat.zero_add _)) G

/-- Every index of the array lies in the block: on each axis the block runs from 0 over the array's full extent. -/
theorem mem_blk (t : Fin cfg0.N) (i : (main_v1 : Ref sig .tc).ty.shape.Idx) : i ∈ ((cfg0.win (1 : Fin 2)).blk t).view.set := by
  show i ∈ ((View.whole main_v1).slice (win0_1.rect t)).set
  rw [View.set_slice_whole, Rect.mem_set_unit]
  intro a
  rw [congrFun (off_zero t) a]
  exact ⟨Nat.zero_le _, by rw [Nat.zero_add]; exact (i a).isLt⟩

/-- The one point writes the whole staging buffer over the whole result array: it ends holding what the body
    left there — the device's own block in its own rows, its partner's, narrowed and widened back, in the others. -/
theorem final_out (c : Dev nD) : (dats m ρ 0 c).arrAt (1 : Fin 2) cfg0.N = outAt m ρ c :=
  (dats m ρ 0 c).arrAt_eq_of_cover (1 : Fin 2) (outAt m ρ c)
    (fun t _ => (flushed_out m ρ c t).trans (read_blk t (outAt m ρ c)).symm)
    (fun i => ⟨t₀, flush0_1 t₀, mem_blk t₀ i⟩)

/-- info: 'Cert.KernelIdeal.Final.final_out' depends on axioms: [propext, Classical.choice, Quot.sound] -/
#guard_msgs in #print axioms final_out

/-- info: 'Cert.KernelIdeal.Final.final_x' depends on axioms: [propext, Classical.choice, Quot.sound] -/
#guard_msgs in #print axioms final_x

end Cert.KernelIdeal.Final

end
-- ==== Proof.RefRun.lean ====
/- The run of the reference program, which returns its argument at once.

   The reference's @main is the EMPTY line of host operations. A straight line of host operations run on
   the TensorCores terminates on every weakly fair execution, each TensorCore buffer ending at the fold of
   the operations' results over what the launch dealt it; the fold of no operation is the identity, so
   every TensorCore buffer — the argument array among them — ends holding what it held at launch. -/
import proofs.«900666_g7700000000000667_dist_ag_v7x_xyz2x2x2_y_m256_n256_f32_1_alg».proof.ReferenceIdeal
import proofs.«900666_g7700000000000667_dist_ag_v7x_xyz2x2x2_y_m256_n256_f32_1_alg».proof.Proof.Gen.ReferenceIdeal
import Idealize.ShloMosaic.Lib.StableHlo.Run

noncomputable section

namespace Cert.ReferenceIdeal.RefRun

open Cert.ReferenceIdeal Idealize.ShloMosaic Idealize.SL.Sem

variable {F : FTy → Type} [FloatOps F]

/-- The signature scopes no TensorCore buffer: its one buffer is @main's argument, in HBM. -/
theorem scopedRefs_eq : (Finset.univ.filter fun b : Ref sig .tc => b.isScoped) = ∅ := by decide

/-- The signature scopes no semaphore: it has none. -/
theorem scopedSems_eq : (Finset.univ.filter fun sm : SemLoc sig => sm.isScoped .tc) = ∅ := by decide

/-- @main, on every device, is the empty line of host operations: it returns and does nothing else. -/
theorem main_eq (c : Dev nD) :
    main (F := F) c = StableHlo.seq ([] : List (HloOp τ sig (Elt F))) := rfl

/-- From any memory with zero counters, for any float values: every weakly fair execution of the reference
    terminates, and EVERY TensorCore buffer of every device ends as the launch dealt it. -/
theorem run_all (m : (ℓ : Loc nD τ sig) → Buf (Elt F) ℓ) (g : Dev nD → PrngReg) :
    θ_run (Cert.ReferenceIdeal.defs (F := F)) (onTc (τ := τ) (Cert.ReferenceIdeal.main (F := F))) ⟨m, fun _ => 0, g⟩
      (fun r => ∀ (c : Dev nD) (b : Ref sig .tc),
        r.2.mem ((c.tc : Thread nD τ).loc b) = m ((c.tc : Thread nD τ).loc b)) :=
  -- the fold of the empty line over the launch contents is the launch contents, read at the same cell
  (θ_run _ _ _).mono (fun _ h c b => (h c b).trans rfl)
    (StableHlo.run_seq scopedRefs_eq scopedSems_eq (Cert.ReferenceIdeal.defs (F := F)) (Cert.ReferenceIdeal.main (F := F))
      (fun _ => []) main_eq (fun _ => trivial) m g)

/-- The same, read at the argument array: the reference runs and its argument ends unchanged. -/
theorem run (m : (ℓ : Loc nD τ sig) → Buf (Elt F) ℓ) (g : Dev nD → PrngReg) :
    θ_run (Cert.ReferenceIdeal.defs (F := F)) (onTc (τ := τ) (Cert.ReferenceIdeal.main (F := F))) ⟨m, fun _ => 0, g⟩
      (fun r => ∀ c : Dev nD, r.2.mem ((c.tc : Thread nD τ).loc main_arg0) = m ((c.tc : Thread nD τ).loc main_arg0)) :=
  (θ_run _ _ _).mono (fun _ h c => h c main_arg0) (run_all m g)

/-- info: 'Cert.ReferenceIdeal.RefRun.run' depends on axioms: [propext, Classical.choice, Quot.sound] -/
#guard_msgs in #print axioms run

end Cert.ReferenceIdeal.RefRun

end
-- ==== Proof.Bits.Spec.lean ====
/-
  The all-gather along the mesh's second axis, as a pure function of each device's block.

  A device sits at mesh coordinates (x, y, z) and holds rows [256·y, 256·y + 256) of a 512 × 256 array. Its
  partner is the device at (x, 1 − y, z): the map is an involution without fixed points. The kernel leaves a
  device's result buffer holding its own block in the rows of its own half (a local copy) and, in the rows of
  the other half, the partner's block narrowed to bf16 and widened back to f32 (what the remote copy
  delivers). This module names the memory references, the two row ranges and that final contents, and nothing
  else: the protocol, the body and the value lemmas are stated over these names.
-/
import proofs.«900666_g7700000000000667_dist_ag_v7x_xyz2x2x2_y_m256_n256_f32_1_alg».proof.Kernel
import proofs.«900666_g7700000000000667_dist_ag_v7x_xyz2x2x2_y_m256_n256_f32_1_alg».proof.Proof.Gen.Kernel
import proofs.«900666_g7700000000000667_dist_ag_v7x_xyz2x2x2_y_m256_n256_f32_1_alg».proof.Proof.Gen.Kernel.Skeleton

noncomputable section

namespace Cert.Kernel.Spec

open Cert.Kernel Cert.Kernel.Gen
open Idealize.ShloMosaic Idealize.ShloMosaic.TcCoe Idealize.SL.Sem

variable {F : FTy → Type} [FloatOps F]

/-- The partner of a device: the other position along the second mesh axis. -/
def peer (c : Dev nD) : Dev nD := ⟨k0_dev2 c, k0_dev2_lt c⟩

theorem peer_peer (c : Dev nD) : peer (peer c) = c := by revert c; decide +kernel
theorem peer_ne (c : Dev nD) : peer c ≠ c := by revert c; decide +kernel
theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := rfl

/-- The staged input block, the staged result, the bf16 buffer sent from and the bf16 buffer received into. -/
abbrev xM : Memref sig .tc .vmem S256x256 .f32 := Memref.whole cc0_stg0_0
abbrev oM : Memref sig .tc .vmem S512x256 .f32 := Memref.whole cc0_stg1_0
abbrev sM : Memref sig .tc .vmem S256x256 .bf16 := Memref.whole cc0_scratch0
abbrev rM : Memref sig .tc .vmem S256x256 .bf16 := Memref.whole cc0_scratch1

/-- The rows of the result that hold the device's own block, and the rows that hold its partner's. -/
abbrev ownR (c : Dev nD) : Rect S512x256 := Rect.unit (s := S512x256) (k0_off1 c) S256x256.size (k0_off1_inb c)
abbrev gotR (c : Dev nD) : Rect S512x256 := Rect.unit (s := S512x256) (k0_off2 c) S256x256.size (k0_off2_inb c)

/-- The result buffer restricted to the device's own rows: the destination of the local copy. -/
abbrev ownM (c : Dev nD) : Memref sig .tc .vmem S256x256 .f32 := oM.slice (ownR c) (fun _ => rfl)

/-- Some contents of the result buffer, fixed once: what stands under the two writes of `gathered` when no
    particular earlier contents are meant (both halves are written over, so it is never read). -/
def anyBase (x : (cc0_stg0_0 : Ref sig .tc).ty.Contents (Elt F)) : (cc0_stg1_0 : Ref sig .tc).ty.Contents (Elt F) :=
  fun _ => x (fun a => ⟨0, by fin_cases a <;> decide⟩)

/-- What the remote copy carries: a block narrowed to bf16. -/
def narrowed (x : (cc0_stg0_0 : Ref sig .tc).ty.Contents (Elt F)) : (cc0_scratch0 : Ref sig .tc).ty.Contents (Elt F) := k0_pay2 x

/-- The result buffer once both halves are written over contents `base`: the own rows hold the block `x`, the
    other rows the partner's block `xp` narrowed and widened back. -/
def gathered (c : Dev nD) (x xp : (cc0_stg0_0 : Ref sig .tc).ty.Contents (Elt F))
    (base : (cc0_stg1_0 : Ref sig .tc).ty.Contents (Elt F)) : (cc0_stg1_0 : Ref sig .tc).ty.Contents (Elt F) :=
  (oM.access (gotR c) : View sig .tc _ _ _).write (Elt F)
    ((ownM c).view.write (Elt F) base ((xM : Memref sig .tc .vmem S256x256 .f32).view.read (Elt F) x) Finset.univ)
    (k0_pay1 (narrowed xp)) Finset.univ

end Cert.Kernel.Spec

end
-- ==== Proof.Bits.Protocol.lean ====
/-
  The protocol of the all-gather along the second mesh axis, under the rounds discipline.

  Every device has four cells, each with ONE duty in round 0 and none later:
  * its barrier cell (the runtime's barrier semaphore of collective id 0), one unit, paid by its partner's entry
    signal, which hands over the partner's bf16 landing buffer and that the partner has reached round 0 of its
    receive cell — what the remote copy into the partner needs;
  * its send cell, the credit of a 256 × 256 bf16 block, paid by its own remote copy once the source is read:
    the source buffer comes back holding the device's block narrowed to bf16;
  * its receive cell, the same credit, paid by the partner's remote copy once it has landed: the landing buffer
    holds the partner's block narrowed to bf16;
  * its copy cell, the credit of a 256 × 256 f32 block, paid by its own local copy: the own rows of the result
    buffer hold the device's block, and the half share of the staged input lent to the copy comes back.
  At launch a device owes its partner one barrier unit and one receive credit. Barrier cells sit at level 1,
  receive cells at level 2, everything else at level 0: a device waits on its barrier owing only a receive
  credit, and on its send, receive and copy cells owing nothing.
-/
import proofs.«900666_g7700000000000667_dist_ag_v7x_xyz2x2x2_y_m256_n256_f32_1_alg».proof.Proof.Bits.Spec
import proofs.«900666_g7700000000000667_dist_ag_v7x_xyz2x2x2_y_m256_n256_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Protocol

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, side by side -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The partner map as a permutation of the devices. -/
def pair : Dev nD ≃ Dev nD := ⟨peer, peer, peer_peer, peer_peer⟩

/-! ## The cells -/

abbrev barS : Sem sig := (SemArray.scalar (sig.barrier 0 rfl) : Sems sig S_).sem
abbrev sendS : DmaSems sig S_ := cc0_scratch2
abbrev recvS : DmaSems sig S_ := cc0_scratch3
abbrev copyS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev copyCell (c : Dev nD) : GSem nD τ sig := ((c : Thread nD τ), .dma copyS.sem)

/-- The kernel's own (scoped) semaphores: send, receive, copy; -/
abbrev osem : Fin 3 → SemLoc sig := fun | 0 => .dma sendS.sem | 1 => .dma recvS.sem | 2 => .dma copyS.sem
/-- all four of the protocol's: barrier, send, receive, copy. -/
abbrev csem : Fin 4 → SemLoc sig := fun | 0 => .reg barS | 1 => .dma sendS.sem | 2 => .dma recvS.sem | 3 => .dma copyS.sem
abbrev kcell (ck : Dev nD × Fin 4) : GSem nD τ sig := ((ck.1 : Thread nD τ), csem ck.2)

/-- The credit of a bf16 block (the remote copy) and of an f32 block (the local copy). -/
abbrev N : ℕ := (rM : Memref sig .tc .vmem S256x256 .bf16).view.dmaCredit
abbrev Nc : ℕ := (xM : Memref sig .tc .vmem S256x256 .f32).view.dmaCredit
theorem N_pos : 0 < N := View.dmaCredit_pos _ (by decide)
theorem Nc_pos : 0 < Nc := View.dmaCredit_pos _ (by decide)

/-! ## Contents -/

/-- A device's staged input: its block of the array. -/
def xstg (c : Dev nD) : (cc0_stg0_0 : Ref sig .tc).ty.Contents (Elt F) :=
  (win0_0.blk (0 : Fin 1)).view.read (Elt F) ((s₀ m ρ).mem ((c : Thread nD τ).loc main_arg0))

/-- What a device sends: its block narrowed to bf16; what it receives: its partner's. -/
def sent (c : Dev nD) : (cc0_scratch0 : Ref sig .tc).ty.Contents (Elt F) := narrowed (xstg m ρ c)
def landed (c : Dev nD) : Buf (Elt F) ((rM : Memref sig .tc .vmem S256x256 .bf16).view.loc (c : Thread nD τ)) := narrowed (xstg m ρ (peer c))

/-- A device's result: its own block in its own rows, its partner's — narrowed and widened back — in the others. -/
def outAt (c : Dev nD) : (cc0_stg1_0 : Ref sig .tc).ty.Contents (Elt F) :=
  gathered c (xstg m ρ c) (xstg m ρ (peer c)) (anyBase (xstg m ρ c))

def sPts (c : Dev nD) (f : Buf (Elt F) ((sM : Memref sig .tc .vmem S256x256 .bf16).view.loc (c : Thread nD τ))) : sProp 𝕄 :=
  (sM : Memref sig .tc .vmem S256x256 .bf16).view.loc (c : Thread nD τ) ↦[(sM : Memref sig .tc .vmem S256x256 .bf16).view.set]{fullShare} f
def rPts (c : Dev nD) (f : Buf (Elt F) ((rM : Memref sig .tc .vmem S256x256 .bf16).view.loc (c : Thread nD τ))) : sProp 𝕄 :=
  (rM : Memref sig .tc .vmem S256x256 .bf16).view.loc (c : Thread nD τ) ↦[(rM : Memref sig .tc .vmem S256x256 .bf16).view.set]{fullShare} f
def xPts (q : PosShare TreeShare) (c : Dev nD) : sProp 𝕄 :=
  (xM : Memref sig .tc .vmem S256x256 .f32).view.loc (c : Thread nD τ) ↦[(xM : Memref sig .tc .vmem S256x256 .f32).view.set]{q} xstg m ρ c
/-- The own rows of the result buffer, holding what the result holds there. -/
def ownPts (c : Dev nD) : sProp 𝕄 :=
  (ownM c).view.loc (c : Thread nD τ) ↦[(ownM c).view.set]{fullShare} outAt m ρ c

omit [FloatOps F] in
instance sPts_storable (c : Dev nD) (f) : BI.Storable (upEmb : UEmb _ 𝕄) (sPts (F := F) c f) := by unfold sPts; infer_instance
omit [FloatOps F] in
instance rPts_storable (c : Dev nD) (f) : BI.Storable (upEmb : UEmb _ 𝕄) (rPts (F := F) c f) := by unfold rPts; infer_instance
instance xPts_storable (q) (c : Dev nD) : BI.Storable (upEmb : UEmb _ 𝕄) (xPts (F := F) m ρ q c) := by unfold xPts; infer_instance
instance ownPts_storable (c : Dev nD) : BI.Storable (upEmb : UEmb _ 𝕄) (ownPts (F := F) m ρ c) := by unfold ownPts; infer_instance

omit [FloatOps F] in
theorem sPts_eq (c : Dev nD) (f : Buf (Elt F) ((c : Thread nD τ).loc cc0_scratch0)) :
    sPts c f = (((c : Thread nD τ).loc cc0_scratch0) ↦{fullShare} f : sProp 𝕄) := by unfold sPts; rw [View.set_whole]
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [View.set_whole]
theorem xPts_eq (q) (c : Dev nD) : xPts m ρ q c = (((c : Thread nD τ).loc cc0_stg0_0) ↦{q} xstg m ρ c : sProp 𝕄) := by
  unfold xPts; rw [View.set_whole]

/-! ## The schedule -/

/-- What the partner's entry signal hands a device: the partner's landing buffer and that the partner has reached
    round 0 of its receive cell. -/
def barPay (c : Dev nD) : sProp 𝕄 := iprop((∃ f, rPts (peer c) f) ∗ reached ER (recvCell (peer c)) 0)
def recvPay (c : Dev nD) : sProp 𝕄 := rPts c (landed m ρ c)
def sendPay (c : Dev nD) : sProp 𝕄 := sPts c (sent m ρ c)
def copyPay (c : Dev nD) : sProp 𝕄 := iprop(ownPts m ρ c ∗ xPts m ρ fullShare.left c)

abbrev IsMine (g : GSem nD τ sig) : Prop :=
  g.1.2 = .tc ∧ (g.2 = .reg barS ∨ g.2 = .dma sendS.sem ∨ g.2 = .dma recvS.sem ∨ g.2 = .dma copyS.sem)

/-- One round, round 0, one duty a cell. -/
def gatherRd : Rounds.Schedule (GSem nD τ sig) Unit 𝕄 where
  duties g r := if r = 0 ∧ IsMine g then {()} else ∅
  unitless _ := False
  amount g _ _ := if g.2 = .reg barS then 1 else if g.2 = .dma copyS.sem then Nc else N
  payload g _ _ :=
    if g.2 = .reg barS then barPay g.1.1
    else if g.2 = .dma recvS.sem then recvPay m ρ g.1.1
    else if g.2 = .dma sendS.sem then sendPay m ρ g.1.1
    else if g.2 = .dma copyS.sem then copyPay m ρ g.1.1
    else iprop(emp)
  amount_pos g _ _ _ := by
    by_cases h : g.2 = .reg barS
    · rw [if_pos h]; exact Nat.one_pos
    · rw [if_neg h]
      by_cases h' : g.2 = .dma copyS.sem
      · rw [if_pos h']; exact Nc_pos
      · rw [if_neg h']; exact N_pos

instance gatherRd_payload_storable (g : GSem nD τ sig) (r : ℕ) (d : Unit) :
    BI.Storable (upEmb : UEmb _ 𝕄) ((gatherRd (F := F) m ρ).payload g r d) := by
  show BI.Storable upEmb (if g.2 = .reg barS then barPay g.1.1 else if g.2 = .dma recvS.sem then recvPay m ρ g.1.1
    else if g.2 = .dma sendS.sem then sendPay m ρ g.1.1 else if g.2 = .dma copyS.sem then copyPay m ρ g.1.1 else iprop(emp))
  unfold barPay recvPay sendPay copyPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem copy_ne_bar : (SemLoc.dma copyS.sem : SemLoc sig) ≠ .reg barS := fun h => by cases h
theorem send_ne_recv : (SemLoc.dma sendS.sem : SemLoc sig) ≠ .dma recvS.sem := by decide
theorem send_ne_copy : (SemLoc.dma sendS.sem : SemLoc sig) ≠ .dma copyS.sem := by decide
theorem recv_ne_copy : (SemLoc.dma recvS.sem : SemLoc sig) ≠ .dma copyS.sem := by decide
theorem copy_ne_recv : (SemLoc.dma copyS.sem : SemLoc sig) ≠ .dma recvS.sem := by decide
theorem copy_ne_send : (SemLoc.dma copyS.sem : SemLoc sig) ≠ .dma sendS.sem := by decide

theorem duties_bar : (gatherRd (F := F) m ρ).duties (barCell c) 0 = {()} := by dsimp only [gatherRd]; exact if_pos ⟨rfl, rfl, .inl rfl⟩
theorem duties_send : (gatherRd (F := F) m ρ).duties (sendCell c) 0 = {()} := by dsimp only [gatherRd]; exact if_pos ⟨rfl, rfl, .inr (.inl rfl)⟩
theorem duties_recv : (gatherRd (F := F) m ρ).duties (recvCell c) 0 = {()} := by dsimp only [gatherRd]; exact if_pos ⟨rfl, rfl, .inr (.inr (.inl rfl))⟩
theorem duties_copy : (gatherRd (F := F) m ρ).duties (copyCell c) 0 = {()} := by dsimp only [gatherRd]; exact if_pos ⟨rfl, rfl, .inr (.inr (.inr rfl))⟩
theorem duties_later (g : GSem nD τ sig) : ∀ r, 1 ≤ r → (gatherRd (F := F) m ρ).duties g r = ∅ :=
  fun r hr => by dsimp only [gatherRd]; rw [if_neg fun h => by omega]

theorem amount_bar (d : Unit) : (gatherRd (F := F) m ρ).amount (barCell c) 0 d = 1 := by dsimp only [gatherRd]; exact if_pos rfl
theorem amount_send (d : Unit) : (gatherRd (F := F) m ρ).amount (sendCell c) 0 d = N := by
  dsimp only [gatherRd]; rw [if_neg send_ne_bar, if_neg send_ne_copy]
theorem amount_recv (d : Unit) : (gatherRd (F := F) m ρ).amount (recvCell c) 0 d = N := by
  dsimp only [gatherRd]; rw [if_neg recv_ne_bar, if_neg recv_ne_copy]
theorem amount_copy (d : Unit) : (gatherRd (F := F) m ρ).amount (copyCell c) 0 d = Nc := by
  dsimp only [gatherRd]; rw [if_neg copy_ne_bar, if_pos rfl]

theorem expect_bar : (gatherRd (F := F) m ρ).expect (barCell c) 0 = 1 := by
  unfold Schedule.expect Schedule.amountOf; rw [duties_bar, Finset.sum_singleton, amount_bar]
theorem expect_send : (gatherRd (F := F) m ρ).expect (sendCell c) 0 = N := by
  unfold Schedule.expect Schedule.amountOf; rw [duties_send, Finset.sum_singleton, amount_send]
theorem expect_recv : (gatherRd (F := F) m ρ).expect (recvCell c) 0 = N := by
  unfold Schedule.expect Schedule.amountOf; rw [duties_recv, Finset.sum_singleton, amount_recv]
theorem expect_copy : (gatherRd (F := F) m ρ).expect (copyCell c) 0 = Nc := by
  unfold Schedule.expect Schedule.amountOf; rw [duties_copy, Finset.sum_singleton, amount_copy]

theorem payload_bar (d : Unit) : (gatherRd (F := F) m ρ).payload (barCell c) 0 d = barPay c := by dsimp only [gatherRd]; rw [if_pos rfl]
theorem payload_send (d : Unit) : (gatherRd (F := F) m ρ).payload (sendCell c) 0 d = sendPay m ρ c := by
  dsimp only [gatherRd]; rw [if_neg send_ne_bar, if_neg send_ne_recv, if_pos rfl]
theorem payload_recv (d : Unit) : (gatherRd (F := F) m ρ).payload (recvCell c) 0 d = recvPay m ρ c := by
  dsimp only [gatherRd]; rw [if_neg recv_ne_bar, if_pos rfl]
theorem payload_copy (d : Unit) : (gatherRd (F := F) m ρ).payload (copyCell c) 0 d = copyPay m ρ c := by
  dsimp only [gatherRd]; rw [if_neg copy_ne_bar, if_neg copy_ne_recv, if_neg copy_ne_send, if_pos rfl]

/-- The rest of each cell's round, no duty taken: its one payload. -/
theorem rest_bar : bigSep ((gatherRd (F := F) m ρ).duties (barCell c) 0 \ ∅) (fun d => (gatherRd (F := F) m ρ).payload (barCell c) 0 d) = barPay c := by
  rw [Finset.sdiff_empty, duties_bar, bigSep_singleton, payload_bar]
theorem rest_send : bigSep ((gatherRd (F := F) m ρ).duties (sendCell c) 0 \ ∅) (fun d => (gatherRd (F := F) m ρ).payload (sendCell c) 0 d) = sendPay m ρ c := by
  rw [Finset.sdiff_empty, duties_send, bigSep_singleton, payload_send]
theorem rest_recv : bigSep ((gatherRd (F := F) m ρ).duties (recvCell c) 0 \ ∅) (fun d => (gatherRd (F := F) m ρ).payload (recvCell c) 0 d) = recvPay m ρ c := by
  rw [Finset.sdiff_empty, duties_recv, bigSep_singleton, payload_recv]
theorem rest_copy : bigSep ((gatherRd (F := F) m ρ).duties (copyCell c) 0 \ ∅) (fun d => (gatherRd (F := F) m ρ).payload (copyCell c) 0 d) = copyPay m ρ c := by
  rw [Finset.sdiff_empty, duties_copy, bigSep_singleton, payload_copy]

end Sched

/-! ## What each device owes at launch; the levels -/

/-- A device owes its partner's receive cell a block's credit and its partner's barrier cell one unit; the signal,
    which comes first, peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send, copy) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a cell at level 0 (a staging cell, the send cell, the copy cell) is below everything a device can owe. -/
theorem mayWait_low (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants a device's body opens, under the names the launch allocated them at: its own four, its
    partner's barrier cell (its signal) and receive cell (its remote copy). -/
def invs (K : Dev nD × Fin 4 → ℕ) (c : Dev nD) : sProp 𝕄 :=
  iprop(cellInv ER (gatherRd m ρ) (K (c, 0)) (barCell c) ∗ cellInv ER (gatherRd m ρ) (K (c, 1)) (sendCell c)
    ∗ cellInv ER (gatherRd m ρ) (K (c, 2)) (recvCell c) ∗ cellInv ER (gatherRd m ρ) (K (c, 3)) (copyCell c)
    ∗ cellInv ER (gatherRd m ρ) (K (peer c, 0)) (barCell (peer c)) ∗ cellInv ER (gatherRd m ρ) (K (peer c, 2)) (recvCell (peer c)))

instance invs_persistent (K : Dev nD × Fin 4 → ℕ) (c : Dev nD) : BI.Persistent (invs m ρ K c) := by unfold invs; infer_instance

/-- The ghost state a device starts from: the invariants; its positions at round 0 of its four cells; round 0 reached
    on the cells it pays; the four duty tokens it pays with — its partner's barrier duty and receive duty, its own
    send duty and copy duty. -/
def ghost (K : Dev nD × Fin 4 → ℕ) (c : Dev nD) : sProp 𝕄 :=
  iprop(invs m ρ K c
    ∗ atPos ER (barCell c) 0 ∅ 0 ∗ atPos ER (sendCell c) 0 ∅ 0 ∗ atPos ER (recvCell c) 0 ∅ 0 ∗ atPos ER (copyCell c) 0 ∅ 0
    ∗ reached ER (barCell (peer c)) 0 ∗ reached ER (recvCell (peer c)) 0 ∗ reached ER (sendCell c) 0 ∗ reached ER (recvCell c) 0 ∗ reached ER (copyCell c) 0
    ∗ dutyTok ER (barCell (peer c)) 0 () ∗ dutyTok ER (recvCell (peer c)) 0 () ∗ dutyTok ER (sendCell c) 0 () ∗ dutyTok ER (copyCell c) 0 ())

/-- What a device's body starts from: that at some names, its two credit tokens (its barrier's unit, its receive
    cell's credit) and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, sPts c f) ∗ ∃ f, rPts c f)
/-- After the point: the two bf16 buffers at some contents, the three own cells at zero, closed. -/
def Φ₁ (c : Dev nD) : sProp 𝕄 :=
  iprop((∃ f, sPts c f) ∗ (∃ f, rPts c f) ∗ semVal (sendCell c) 0 ∗ semVal (recvCell c) 0 ∗ semVal (copyCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Protocol

end
-- ==== Proof.Bits.Gather.lean ====
/-
  The value lemmas of the all-gather along the mesh's second axis.

  The result buffer has 512 rows. A device with second mesh coordinate y writes its own block into rows
  [256·y, 256·y + 256) and its partner's block into rows [256·(1 − y), 256·(1 − y) + 256). The two row ranges are
  disjoint and together they are every row; so, whatever the buffer held before, each element of the final
  contents is decided by exactly one of the two writes. With ideal arithmetic a change of float format is the
  identity, and the two blocks, laid at their row offsets, are the whole array again.
-/
import proofs.«900666_g7700000000000667_dist_ag_v7x_xyz2x2x2_y_m256_n256_f32_1_alg».proof.Proof.Bits.Spec
import Idealize.ShloMosaic.Lib.Pipeline.Value
import Idealize.ShloMosaic.Lib.Layout
import Idealize.ShloMosaic.PureOps.Ideal

noncomputable section

namespace Cert.Kernel.Spec

open Cert.Kernel Cert.Kernel.Gen
open Idealize.ShloMosaic Idealize.ShloMosaic.TcCoe Idealize.SL.Sem

variable {F : FTy → Type} [FloatOps F]

/-- Membership in the own rows, by the row coordinate alone: the column range is every column. -/
theorem mem_ownR (c : Dev nD) (i : S512x256.Idx) :
    i ∈ (ownR c).set ↔ 256 * ((c.val / 2) % 2) ≤ (i 0).val ∧ (i 0).val < 256 * ((c.val / 2) % 2) + 256 := by
  rw [Rect.mem_set_unit, Fin.forall_fin_two, k0_off1_eq]
  have h1 : (i 1).val < 256 := (i 1).isLt
  simp only [Matrix.cons_val_zero, Matrix.cons_val_one]
  omega

/-- Membership in the partner's rows, likewise. -/
theorem mem_gotR (c : Dev nD) (i : S512x256.Idx) :
    i ∈ (gotR c).set ↔
      256 - 256 * ((c.val / 2) % 2) ≤ (i 0).val ∧ (i 0).val < 256 - 256 * ((c.val / 2) % 2) + 256 := by
  rw [Rect.mem_set_unit, Fin.forall_fin_two, k0_off2_eq]
  have h1 : (i 1).val < 256 := (i 1).isLt
  simp only [Matrix.cons_val_zero, Matrix.cons_val_one]
  omega

/-- The elements under the two views are the two rectangles' elements. -/
theorem set_ownM (c : Dev nD) : (ownM c).view.set = (ownR c).set := View.set_slice_whole cc0_stg1_0 (ownR c)

theorem set_gotV (c : Dev nD) : (oM.access (gotR c) : View sig .tc _ _ _).set = (gotR c).set :=
  View.set_slice_whole cc0_stg1_0 (gotR c)

/-- The two row ranges are disjoint: with y the device's second coordinate, [256·y, 256·y + 256) and
    [256 − 256·y, 512 − 256·y) share no row for y = 0 and for y = 1. -/
theorem got_subset (c : Dev nD) :
    (oM.access (gotR c) : View sig .tc _ _ _).set ⊆ Finset.univ \ (ownM c).view.set := by
  intro i hi
  rw [set_gotV, mem_gotR] at hi
  rw [Finset.mem_sdiff, set_ownM, mem_ownR]
  have hy : (c.val / 2) % 2 < 2 := Nat.mod_lt _ (by decide)
  exact ⟨Finset.mem_univ i, by omega⟩

/-- Together they are every row: a row below 512 outside the one range lies in the other. -/
theorem rows_cover (c : Dev nD) :
    Finset.univ \ (ownM c).view.set ⊆ (oM.access (gotR c) : View sig .tc _ _ _).set := by
  intro i hi
  rw [Finset.mem_sdiff, set_ownM, mem_ownR] at hi
  rw [set_gotV, mem_gotR]
  have hy : (c.val / 2) % 2 < 2 := Nat.mod_lt _ (by decide)
  have h0 : (i 0).val < 512 := (i 0).isLt
  omega

/-- On the own rows the local copy decides: the later write through the partner's rows does not reach them, and
    the local copy's payload overwrites whatever stood there. -/
theorem own_rows (c : Dev nD) (x xp : (cc0_stg0_0 : Ref sig .tc).ty.Contents (Elt F))
    (base g : (cc0_stg1_0 : Ref sig .tc).ty.Contents (Elt F)) (i) (hi : i ∈ (ownM c).view.set) :
    (ownM c).view.write (Elt F) g ((xM : Memref sig .tc .vmem S256x256 .f32).view.read (Elt F) x) Finset.univ i
      = gathered c x xp base i := by
  have hn : i ∉ (oM.access (gotR c) : View sig .tc _ _ _).setOn Finset.univ := fun h =>
    (Finset.mem_sdiff.mp (got_subset c h)).2 hi
  unfold gathered
  rw [View.write_of_not_mem _ _ _ hn]
  obtain ⟨y, rfl⟩ := View.exists_emb_of_mem_set _ hi
  rw [View.write_emb_of_mem _ _ (Finset.mem_univ y), View.write_emb_of_mem _ _ (Finset.mem_univ y)]

/-- On every other row the remote copy decides: those rows are the partner's rows, written last. -/
theorem got_rows (c : Dev nD) (x xp : (cc0_stg0_0 : Ref sig .tc).ty.Contents (Elt F))
    (base g : (cc0_stg1_0 : Ref sig .tc).ty.Contents (Elt F)) (i) (hi : i ∈ Finset.univ \ (ownM c).view.set) :
    (oM.access (gotR c) : View sig .tc _ _ _).write (Elt F) g (k0_pay1 (narrowed xp)) Finset.univ i
      = gathered c x xp base i := by
  obtain ⟨y, rfl⟩ := View.exists_emb_of_mem_set _ (rows_cover c hi)
  unfold gathered
  rw [View.write_emb_of_mem _ _ (Finset.mem_univ y), View.write_emb_of_mem _ _ (Finset.mem_univ y)]

/-- With ideal arithmetic narrowing a block to bf16 and widening it back changes nothing. -/
theorem pay1_narrowed_ideal (xp : (cc0_stg0_0 : Ref sig .tc).ty.Contents (Elt Ideal)) :
    k0_pay1 (F := Ideal) (narrowed xp) = xp := by
  funext y
  simp only [k0_pay1, narrowed, k0_pay2, extf, truncf, shapeCast_self, Ideal.extf_def, Ideal.truncf_def]

/-- The block a device holds is the one at its second mesh coordinate along the rows, -/
theorem meshBlock_row (c : Dev nD) :
    ((Layout.meshBlock [2, 2, 2] ![[1], []] c) 0).val = (c.val / 2) % 2 := by
  revert c; decide

/-- and the only one along the columns. -/
theorem meshBlock_col (c : Dev nD) : ((Layout.meshBlock [2, 2, 2] ![[1], []] c) 1).val = 0 := rfl

/-- The partner's second mesh coordinate is the other one. -/
theorem peer_row (c : Dev nD) : ((peer c).val / 2) % 2 = 1 - (c.val / 2) % 2 := by
  revert c; decide +kernel

/-- The two blocks, each laid at its row offset, are the whole array: row i of the whole lies in block i / 256 at
    row i % 256, the device's own block is block y and its partner's block 1 − y, and at ideal arithmetic the
    partner's block arrives unchanged. -/
theorem gathered_whole (c : Dev nD) (X : (⟨2, ![512, 256]⟩ : Shape).Idx → Elt Ideal .f32)
    (base : (cc0_stg1_0 : Ref sig .tc).ty.Contents (Elt Ideal)) :
    gathered (F := Ideal) c
      (Layout.blockN ⟨2, ![256, 256]⟩ ⟨2, ![512, 256]⟩ (Layout.meshBlock [2, 2, 2] ![[1], []] c) X)
      (Layout.blockN ⟨2, ![256, 256]⟩ ⟨2, ![512, 256]⟩ (Layout.meshBlock [2, 2, 2] ![[1], []] (peer c)) X)
      base = X := by
  funext i
  have hy : (c.val / 2) % 2 < 2 := Nat.mod_lt _ (by decide)
  by_cases hi : i ∈ (ownM c).view.set
  · rw [← own_rows c _ _ base base i hi]
    obtain ⟨y, rfl⟩ := View.exists_emb_of_mem_set _ hi
    rw [View.write_emb_of_mem _ _ (Finset.mem_univ y)]
    simp only [Memref.view_whole, View.read_whole, Layout.blockN_apply]
    refine (cast_eq _ _).trans (congrArg X ?_)
    funext a; apply Fin.ext
    rw [Layout.TilesN.idx_val]
    show _ = ((ownR c).emb y a).val
    rw [Rect.emb_apply]
    fin_cases a
    · show ((Layout.meshBlock [2, 2, 2] ![[1], []] c) 0).val * 256 + (y 0).val = k0_off1 c 0 + 1 * (y 0).val
      rw [meshBlock_row, k0_off1_eq]
      simp only [Matrix.cons_val_zero]
      omega
    · show ((Layout.meshBlock [2, 2, 2] ![[1], []] c) 1).val * 256 + (y 1).val = k0_off1 c 1 + 1 * (y 1).val
      rw [meshBlock_col, k0_off1_eq]
      simp only [Matrix.cons_val_one, Matrix.cons_val_zero]
      omega
  · have hi' : i ∈ Finset.univ \ (ownM c).view.set := Finset.mem_sdiff.mpr ⟨Finset.mem_univ i, hi⟩
    rw [← got_rows c _ _ base base i hi']
    obtain ⟨y, rfl⟩ := View.exists_emb_of_mem_set _ (rows_cover c hi')
    rw [View.write_emb_of_mem _ _ (Finset.mem_univ y), pay1_narrowed_ideal]
    simp only [Layout.blockN_apply]
    refine (cast_eq _ _).trans (congrArg X ?_)
    funext a; apply Fin.ext
    rw [Layout.TilesN.idx_val]
    show _ = ((gotR c).emb y a).val
    rw [Rect.emb_apply]
    fin_cases a
    · show ((Layout.meshBlock [2, 2, 2] ![[1], []] (peer c)) 0).val * 256 + (y 0).val
        = k0_off2 c 0 + 1 * (y 0).val
      rw [meshBlock_row, peer_row, k0_off2_eq]
      simp only [Matrix.cons_val_zero]
      omega
    · show ((Layout.meshBlock [2, 2, 2] ![[1], []] (peer c)) 1).val * 256 + (y 1).val
        = k0_off2 c 1 + 1 * (y 1).val
      rw [meshBlock_col, k0_off2_eq]
      simp only [Matrix.cons_val_one, Matrix.cons_val_zero]
      omega

/-- info: 'Cert.Kernel.Spec.got_subset' depends on axioms: [propext, Classical.choice, Quot.sound] -/
#guard_msgs in #print axioms got_subset

/-- info: 'Cert.Kernel.Spec.rows_cover' depends on axioms: [propext, Classical.choice, Quot.sound] -/
#guard_msgs in #print axioms rows_cover

/-- info: 'Cert.Kernel.Spec.own_rows' depends on axioms: [propext, Classical.choice, Quot.sound] -/
#guard_msgs in #print axioms own_rows

/-- info: 'Cert.Kernel.Spec.got_rows' depends on axioms: [propext, Classical.choice, Quot.sound] -/
#guard_msgs in #print axioms got_rows

/-- info: 'Cert.Kernel.Spec.gathered_whole' depends on axioms: [propext, Classical.choice, Quot.sound] -/
#guard_msgs in #print axioms gathered_whole

end Cert.Kernel.Spec

end
-- ==== Proof.Bits.Body.lean ====
/-
  One device's body, stepped once at a symbolic device, and the pipeline's body obligation from it.

  In program order: the entry signal to the partner's barrier cell hands over the device's own landing buffer; the
  local copy of the staged block into the device's own rows of the result pays the device's own copy duty, with one
  half share of the staged block lent to it while the other half is read; the block is narrowed to bf16 into the send
  buffer; the barrier wait brings the partner's landing buffer; the remote copy pays the device's own send duty and
  the partner's receive duty; the send wait returns the send buffer, the receive wait the landing buffer holding the
  partner's narrowed block; that block, widened back, is stored into the other rows of the result; the copy wait
  returns the own rows holding the block, and the lent half share. The two row ranges are disjoint and cover the
  buffer, so the result buffer holds `outAt` whatever it held before.
-/
import proofs.«900666_g7700000000000667_dist_ag_v7x_xyz2x2x2_y_m256_n256_f32_1_alg».proof.Proof.Bits.Protocol
import proofs.«900666_g7700000000000667_dist_ag_v7x_xyz2x2x2_y_m256_n256_f32_1_alg».proof.Proof.Bits.Gather

noncomputable section

namespace Cert.Kernel.Body

open Cert.Kernel Cert.Kernel.Gen Cert.Kernel.Spec Cert.Kernel.Protocol

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 4 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 1) ∗ cred (tallyAt (recvCell c) () N) ∗ levAts L lv ∗ (∃ f, sPts c f) ∗ ∃ f, rPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

theorem landed_peer (c : Dev nD) : landed m ρ (peer c) = sent m ρ c := by unfold landed sent; rw [peer_peer]
theorem payload_bar' (c : Dev nD) (d : Unit) : (gatherRd (F := F) m ρ).payload (barCell c) 0 d
    = iprop((∃ f, ((rM : Memref sig .tc .vmem S256x256 .bf16).view.loc (peer c : Thread nD τ) ↦[(rM : Memref sig .tc .vmem S256x256 .bf16).view.set]{fullShare} f)) ∗ reached ER (recvCell (peer c)) 0) := by
  rw [payload_bar]; rfl
theorem payload_send' (c : Dev nD) (d : Unit) : (gatherRd (F := F) m ρ).payload (sendCell c) 0 d
    = ((sM : Memref sig .tc .vmem S256x256 .bf16).view.loc (c : Thread nD τ) ↦[(sM : Memref sig .tc .vmem S256x256 .bf16).view.set]{fullShare} sent m ρ c) := by
  rw [payload_send]; rfl
theorem payload_recv' (c : Dev nD) (d : Unit) : (gatherRd (F := F) m ρ).payload (recvCell c) 0 d
    = ((rM : Memref sig .tc .vmem S256x256 .bf16).view.loc (c : Thread nD τ) ↦[(rM : Memref sig .tc .vmem S256x256 .bf16).view.set]{fullShare} landed m ρ c) := by
  rw [payload_recv]; rfl

theorem payload_bar_peer (c : Dev nD) (d : Unit) : (gatherRd (F := F) m ρ).payload (barCell (peer c)) 0 d
    = iprop((∃ f, ((rM : Memref sig .tc .vmem S256x256 .bf16).view.loc (c : Thread nD τ) ↦[(rM : Memref sig .tc .vmem S256x256 .bf16).view.set]{fullShare} f)) ∗ reached ER (recvCell c) 0) := by
  rw [payload_bar]; unfold barPay; rw [peer_peer]; rfl
theorem payload_recv_peer (c : Dev nD) (d : Unit) : (gatherRd (F := F) m ρ).payload (recvCell (peer c)) 0 d
    = ((rM : Memref sig .tc .vmem S256x256 .bf16).view.loc (peer c : Thread nD τ) ↦[(rM : Memref sig .tc .vmem S256x256 .bf16).view.set]{fullShare} sent m ρ c) := by
  rw [payload_recv, ← landed_peer]; rfl

attribute [local sl_rounds 2000] payload_bar_peer payload_recv_peer
attribute [local sl_rounds] peer_peer landed_peer payload_bar' payload_send' payload_recv'
attribute [local sl_canon] peer_peer
attribute [local sl_rounds] duties_bar duties_send duties_recv duties_copy amount_bar amount_send amount_recv amount_copy
  payload_copy expect_bar expect_send expect_recv expect_copy
attribute [local sl_canon] dev1_eq dev2_eq

abbrev r0 : Rect S256x256 := Rect.unit (s := S256x256) ![0, 0] S256x256.size inb_S256x256_S256x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S256x256 .f32).view.readAt (Elt F) r0.toLoadRect f = f :=
  Memref.readAt_unit_zero (Elt F) cc0_stg0_0 hz _ f
omit [FloatOps F] in
theorem read_r (f : (cc0_scratch1 : Ref sig .tc).ty.Contents (Elt F)) : (rM : Memref sig .tc .vmem S256x256 .bf16).view.readAt (Elt F) r0.toLoadRect f = f :=
  Memref.readAt_unit_zero (Elt F) cc0_scratch1 hz _ f
omit [FloatOps F] in
theorem write_s (f w : (cc0_scratch0 : Ref sig .tc).ty.Contents (Elt F)) :
    ((sM : Memref sig .tc .vmem S256x256 .bf16).access r0 : View sig .tc _ _ _).write (Elt F) f w Finset.univ = w :=
  Memref.write_access_unit_zero_univ (Elt F) cc0_scratch0 hz _ f w

/-- What the local copy's landing delivers makes the copy duty's payload: on the own rows the copied block is what the
    result holds there, whatever the buffer held before. -/
theorem copy_pays (c : Dev nD) (g : Buf (Elt F) ((ownM c).view.loc (c : Thread nD τ))) :
    iprop(((ownM c).view.loc (c : Thread nD τ) ↦[(ownM c).view.set]{fullShare}
          ((ownM c).view.write (Elt F) g ((xM : Memref sig .tc .vmem S256x256 .f32).view.read (Elt F) (xstg m ρ c)) Finset.univ))
        ∗ ((xM : Memref sig .tc .vmem S256x256 .f32).view.loc (c : Thread nD τ) ↦[(xM : Memref sig .tc .vmem S256x256 .f32).view.set]{fullShare.left} xstg m ρ c))
      ⊢ (gatherRd (F := F) m ρ).payload (copyCell c) 0 () := by
  rw [payload_copy]; unfold copyPay ownPts xPts outAt
  rw [pointsTo_congr (fun i hi => own_rows c (xstg m ρ c) (xstg m ρ (peer c)) (anyBase (xstg m ρ c)) g i hi)]

omit [FloatOps F] in
/-- A whole bf16 buffer written over with the whole of another holds what that one held. -/
theorem landed_eq (c : Dev nD) (fd : Buf (Elt F) ((rM : Memref sig .tc .vmem S256x256 .bf16).view.loc (c : Thread nD τ))) (fs : (cc0_scratch0 : Ref sig .tc).ty.Contents (Elt F)) :
    (rM : Memref sig .tc .vmem S256x256 .bf16).view.write (Elt F) fd ((sM : Memref sig .tc .vmem S256x256 .bf16).view.read (Elt F) fs) Finset.univ = fs := by
  show (View.whole cc0_scratch1).write (Elt F) fd ((View.whole cc0_scratch0).read (Elt F) fs) Finset.univ = fs
  rw [View.read_whole]
  exact View.write_whole_univ _ _ _

/-- The remote copy: the send duty of the device's own send cell and the receive duty of its partner's receive cell,
    the device addressed substituted by the partner. -/
theorem send_to_peer (c n : Dev nD) (hn : n = peer c) {hsc : (rM : Memref sig (Dev.tc n : Thread nD τ).2.kind .vmem S256x256 .bf16).view.ref.isScScratch = false}
    {hsrc : (sM : Memref sig .tc .vmem S256x256 .bf16).view.WordExact} {hdst : (rM : Memref sig .tc .vmem S256x256 .bf16).view.WordExact}
    {hsem : DmaTarget.Typed .vmem (.dma recvS.sem) (.remote (Dev.tc n : Thread nD τ) (rM : Memref sig .tc .vmem S256x256 .bf16) (.dma sendS.sem) hsc)}
    {α : Type} {Q : α → sProp 𝕄} {k : PUnit → Prog (TpuEff nD τ sig (Elt F) Λ₀ .tc) α}
    (fn : Buf (Elt F) ((rM : Memref sig .tc .vmem S256x256 .bf16).view.loc (peer c : Thread nD τ))) (W : Waits sig Unit) :
    iprop(cellInv ER (gatherRd m ρ) (K (c, 1)) (sendCell c) ∗ cellInv ER (gatherRd m ρ) (K (peer c, 2)) (recvCell (peer c))
        ∗ ((sM : Memref sig .tc .vmem S256x256 .bf16).view.loc (c : Thread nD τ) ↦[(sM : Memref sig .tc .vmem S256x256 .bf16).view.set]{fullShare} sent m ρ c)
        ∗ ((rM : Memref sig .tc .vmem S256x256 .bf16).view.loc (peer c : Thread nD τ) ↦[(rM : Memref sig .tc .vmem S256x256 .bf16).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma sendS.sem) hsc) (.dma recvS.sem) hsrc hdst hsem) k) Q) := by
  subst hn
  exact Rounds.wp_send_pointsTo 𝒱₀ ER (gatherRd m ρ) (c : Thread nD τ) none (κ₁ := K (c, 1)) (κ₂ := K (peer c, 2))
    (r₁ := 0) (r₂ := 0) (d₁ := ()) (d₂ := ()) (fd := fn)
    (by rw [duties_send]; exact Finset.mem_singleton_self _) (by rw [duties_recv]; exact Finset.mem_singleton_self _)
    () () N rfl (amount_send m ρ c ()) (amount_recv m ρ (peer c) ()) 0 (by rw [zero_add]) (W := W)
    (by rw [payload_send]; unfold sendPay sPts; exact BI.Entails.refl _)
    (by rw [payload_recv]; unfold recvPay rPts; rw [landed_eq, landed_peer])

theorem x_raw (q : PosShare TreeShare) (c : Dev nD) :
    ((xM : Memref sig .tc .vmem S256x256 .f32).view.loc (c : Thread nD τ) ↦[(xM : Memref sig .tc .vmem S256x256 .f32).view.set]{q} xstg m ρ c : sProp 𝕄)
      = (((c : Thread nD τ).loc cc0_stg0_0) ↦{q} xstg m ρ c : sProp 𝕄) := by rw [View.set_whole]

attribute [local irreducible] peer

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, Prog.bind_assoc, wp_deviceId]
  unfold bodyPre Protocol.ghost Protocol.invs
  iintro ⟨⟨⟨⟨⟨#HIbar, #HIsnd, #HIrcv, #HIcpy, #HIbarP, #HIrcvP⟩, HatB, HatS, HatV, HatC, #HrBP, #HrVP, #HrS, #HrV, #HrC, HtBP, HtVP, HtS, HtC⟩,
      HcB, HcV, #Hlev, ⟨%fs0, Hs⟩, ⟨%fr0, Hr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave Hx' := (Entails.of_eq (xPts_eq m ρ fullShare c).symm) $$ Hx
  unfold xPts sPts rPts
  sl_exec
  -- the staged block in two half shares: one lent to the local copy, one kept to read
  ihave Hx2 := (pointsTo_share (PosShare.mem_left_op_right fullShare)).1 $$ Hx'
  icases Hx2 with ⟨HxL, HxR⟩
  -- the result buffer cut into the own rows and the rest
  ihave Ho2 := (pointsTo_split_subset (I := (ownM c).view.set) (Finset.subset_univ _)).1 $$ Hout
  icases Ho2 with ⟨HoA, HoB⟩
  -- the local copy: the copy duty of the device's own copy cell
  iapply (Rounds.wp_copy_pointsTo 𝒱₀ ER (gatherRd m ρ) (c : Thread nD τ) none (src := xM) (dst := ownM c) (κ := K (c, 3)) (r := 0) (d := ())
      (q := fullShare.left) (fs := xstg m ρ c) (fd := g1)
      (by rw [duties_copy]; exact Finset.mem_singleton_self _) () Nc rfl (amount_copy m ρ c ()) (copy_pays m ρ c g1)) $$ [HxL HoA HtC]
  · isplitr; · iexact HIcpy
    isplitl [HxL]; · iexact HxL
    isplitl [HoA]; · iexact HoA
    isplitl [HtC]; · iexact HtC
    iexact HrC
  iintro HcC
  -- the load of the staged block, through the half share kept
  iapply (wp_load 𝒱₀ (c : Thread nD τ) none Set.univ (m := xM) (by rw [View.set_whole]; exact Finset.subset_univ _)) $$ HxR; iintro HxR
  rw [read_x]
  have hmw := mayWait_bar (F := F) c
  sl_exec (disch := simp only [dev1_eq, dev2_eq])
  -- the send buffer holds the block narrowed
  rw [show (sM : Memref sig .tc .vmem S256x256 .bf16).view.writes (Elt F) fs0 [⟨r0, k0_pay2 (xstg m ρ c)⟩] = sent m ρ c from write_s _ _]
  -- the remote copy into the partner's landing buffer
  iapply (send_to_peer m ρ K c _ (dev2_eq c) HatB_pay1_v (insert (SemLoc.reg barS, ()) W)) $$ [Hs HatB_pay1 HO HtS HtVP]
  · isplitr; · iexact HIsnd
    isplitr; · iexact HIrcvP
    isplitl [Hs]; · iexact Hs
    isplitl [HatB_pay1]; · iexact HatB_pay1
    isplitl [HO]; · iexact HO
    isplitl [HtS]; · iexact HtS
    isplitr; · iexact HrS
    isplitl [HtVP]; · iexact HtVP
    iexact HrVP
  iintro ⟨HcS, HO⟩
  sl_exec
  rw [read_r]
  -- the rows of the other half: read (the value is not used) and written with the partner's block widened back
  iapply (wp_load_rect 𝒱₀ (c : Thread nD τ) none Set.univ (m := oM) (r := gotR c) (got_subset c)) $$ HoB; iintro HoB
  iapply (wp_store 𝒱₀ (c : Thread nD τ) none Set.univ (m := oM) (r := gotR c) (Mk := Finset.univ) (got_subset c)) $$ HoB; iintro HoB
  -- the wait on the copy cell: the own rows holding the block, and the lent half share, come back
  iapply (Rounds.wp_wait_rest_token 𝒱₀ ER (gatherRd m ρ) (c : Thread nD τ) none (κ := K (c, 3))
      (wpE_waitDma2_eq 𝒱₀ (c : Thread nD τ) none Set.univ) (Set.mem_univ _) () (O := 0) (R := 0) (m := 0) (T := ∅)
      (by rw [Nat.zero_add, expect_copy])) $$ [HcC HO HatC]
  · isplitr; · iexact HIcpy
    isplitl [HcC]; · iexact HcC
    isplitl [HO]; · iexact HO
    isplitr; · rw [MayWait_zero]; iempintro
    iexact HatC
  iintro ⟨HO, HatC, -, Hpay⟩
  ihave Hp := (Entails.of_eq (rest_copy m ρ c)) $$ Hpay
  unfold copyPay ownPts xPts
  icases Hp with ⟨HoA, HxL⟩
  -- the staged block whole again
  ihave Hx := (pointsTo_share (PosShare.mem_left_op_right fullShare)).2 $$ [HxL HxR]
  · isplitl [HxL] <;> iassumption
  ihave Hx := (Entails.of_eq (x_raw m ρ fullShare c)) $$ Hx
  -- the other rows hold what the result holds there, whatever stood there before; the two parts are the result buffer
  rw [show landed m ρ c = narrowed (xstg m ρ (peer c)) from rfl]
  ihave HoB := (Entails.of_eq (pointsTo_congr (fun i hi => got_rows c (xstg m ρ c) (xstg m ρ (peer c)) (anyBase (xstg m ρ c)) g1 i hi))) $$ HoB
  ihave Hout := (pointsTo_split_subset (ℓ := (c : Thread nD τ).loc cc0_stg1_0) (S := Finset.univ) (q := fullShare) (f := outAt m ρ c)
      (I := (ownM c).view.set) (Finset.subset_univ _)).2 $$ [HoA HoB]
  · isplitl [HoA]; · iexact HoA
    iexact HoB
  -- the three own cells close: their counters at zero are the device's again
  imod (Rounds.cell_close ER (gatherRd m ρ) (Set.mem_univ (K (c, 1))) (fun h => h) (R := 1) (duties_later m ρ (sendCell c))) $$ [HatS] with HzS
  · isplitr; · iexact HIsnd
    iexact HatS
  imod (Rounds.cell_close ER (gatherRd m ρ) (Set.mem_univ (K (c, 2))) (fun h => h) (R := 1) (duties_later m ρ (recvCell c))) $$ [HatV] with HzV
  · isplitr; · iexact HIrcv
    iexact HatV
  imod (Rounds.cell_close ER (gatherRd m ρ) (Set.mem_univ (K (c, 3))) (fun h => h) (R := 0 + 1) (duties_later m ρ (copyCell c))) $$ [HatC] with HzC
  · isplitr; · iexact HIcpy
    iexact HatC
  rw [wp_ret]; imodintro
  iapply Hk
  unfold bodyPost Φ₁ Dat.owesAt Pipeline.owesWithin sPts rPts
  rw [show (dats m ρ 0 c).owed t₀.succ = 0 from rfl]
  isplitl [HatS_pay1 HatV_pay1 HzS HzV HzC]
  · isplitl [HatS_pay1]; · iexists _; iexact HatS_pay1
    isplitl [HatV_pay1]; · iexists _; iexact HatV_pay1
    isplitl [HzS]; · iexact HzS
    isplitl [HzV]; · iexact HzV
    iexact HzC
  isplitl [HO]
  · iexists (insert (SemLoc.dma copyS.sem, ()) (insert (SemLoc.dma recvS.sem, ()) (insert (SemLoc.dma sendS.sem, ()) (insert (SemLoc.reg barS, ()) W))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The pipeline's body obligation on a device. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 cc0_scratch4) (fun _ => bodyPost m ρ c)
  unfold bodyPre' Φ₀ start
  iintro ⟨⟨⟨⟨%K, Hg⟩, Hrest⟩, Hs, Hr⟩, Ho, Hx, Hout⟩
  iapply (sound_body m ρ K c fun _ => bodyPost m ρ c)
  unfold bodyPre
  isplitr []
  · isplitl [Hg Hrest Hs Hr]
    · isplitl [Hg]; · iexact Hg
      icases Hrest with ⟨H1, H2, H3⟩
      isplitl [H1]; · iexact H1
      isplitl [H2]; · iexact H2
      isplitl [H3]; · iexact H3
      isplitl [Hs]; · iexact Hs
      iexact Hr
    isplitl [Ho]; · iexact Ho
    isplitl [Hx] <;> iassumption
  · iintro H; iexact H

/-- info: 'Cert.Kernel.Body.body_obligation' depends on axioms: [propext, Classical.choice, Quot.sound] -/
#guard_msgs in #print axioms body_obligation

end Cert.Kernel.Body

end
-- ==== Proof.Bits.Launch.lean ====
/-
  The launch of the all-gather: from each device's body obligation to a run of the whole mesh.

  The four cells of every device are allocated under one update, the barrier cell among them (it is the runtime's
  semaphore, not scoped to the kernel, so its counter at zero arrives with the launch's unscoped semaphores). The
  duty tokens are dealt to the devices that pay them: a device's barrier token and receive token go to its partner,
  its send token and copy token stay. The launch credit of a device is one barrier unit and one receive credit, both
  owed by its partner. The run's post names every window's array after the run.
-/
import proofs.«900666_g7700000000000667_dist_ag_v7x_xyz2x2x2_y_m256_n256_f32_1_alg».proof.Proof.Bits.Body

noncomputable section

namespace Cert.Kernel.Launch

open Cert.Kernel Cert.Kernel.Gen Cert.Kernel.Spec Cert.Kernel.Protocol Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def allCells : Finset (GSem nD τ sig) := Finset.univ.map ⟨kcell, kcell_injective⟩

/-- Every cell's one duty token, as minted. -/
abbrev tokOf (ck : Dev nD × Fin 4) : GSem nD τ sig × ℕ × Unit := (kcell ck, 0, ())
theorem tokOf_injective : Function.Injective (tokOf : Dev nD × Fin 4 → GSem nD τ sig × ℕ × Unit) :=
  fun a b h => kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The duty tokens of a device's own cells. -/
def toks (c : Dev nD) : sProp 𝕄 :=
  iprop(dutyTok ER (barCell c) 0 () ∗ dutyTok ER (sendCell c) 0 () ∗ dutyTok ER (recvCell c) 0 () ∗ dutyTok ER (copyCell c) 0 ())

/-- What the launch element deals a device. -/
def G (c : Dev nD) : sProp 𝕄 :=
  iprop((bigSep Finset.univ fun k : Fin 4 => roundState ER (gatherRd m ρ) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 4 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin4]; rfl
  iintro HX
  imod (Rounds.fund ER (gatherRd m ρ) allCells allToks) $$ HX with ⟨Hst, Hr, Hat, Htok⟩
  imodintro
  ihave Hst' := (Entails.of_eq (hX fun g => roundState ER (gatherRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send, receive and copy semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (copyCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HC⟩, HB⟩
  isplitl [HB]; · iexact HB
  isplitl [HS]; · iexact HS
  isplitl [HV] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (gatherRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (gatherRd m ρ) (kcell (c, k)) 0)
      ⊢ (|={Set.univ}=> bigSep Finset.univ fun k => iprop(∃ κ : ℕ, cellInv ER (gatherRd m ρ) κ (kcell (c, k))) : sProp 𝕄) from by
        rw [← bigSep_sep']
        exact (bigSep_mono fun k _ => (Rounds.body_intro ER (gatherRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (gatherRd m ρ) (K ck) (kcell ck))
    ∗ bigSep Finset.univ fun ck : Dev nD × Fin 4 => reached ER (kcell ck) 0)

instance records_persistent (K : Dev nD × Fin 4 → ℕ) : BI.Persistent (records m ρ K) := by unfold records; infer_instance

theorem inv_at (K : Dev nD × Fin 4 → ℕ) (ck : Dev nD × Fin 4) :
    (bigSep Finset.univ fun ck : Dev nD × Fin 4 => (cellInv ER (gatherRd m ρ) (K ck) (kcell ck) : sProp 𝕄)) ⊢ cellInv ER (gatherRd m ρ) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with a device: its positions, and the tokens of the duties it pays. -/
def payToks (c : Dev nD) : sProp 𝕄 :=
  iprop(dutyTok ER (barCell (peer c)) 0 () ∗ dutyTok ER (recvCell (peer c)) 0 () ∗ dutyTok ER (sendCell c) 0 () ∗ dutyTok ER (copyCell c) 0 ())
def linear (c : Dev nD) : sProp 𝕄 :=
  iprop((atPos ER (barCell c) 0 ∅ 0 ∗ atPos ER (sendCell c) 0 ∅ 0 ∗ atPos ER (recvCell c) 0 ∅ 0 ∗ atPos ER (copyCell c) 0 ∅ 0) ∗ payToks c)

theorem ghost_intro (K : Dev nD × Fin 4 → ℕ) (c : Dev nD) : iprop(records m ρ K ∗ linear c) ⊢ G' m ρ c := by
  unfold records linear payToks G' Protocol.ghost Protocol.invs
  iintro ⟨⟨#HI, #HR⟩, ⟨HaB, HaS, HaV, HaC⟩, HtBP, HtVP, HtS, HtC⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (peer c, 0)); iexact HI
    iapply (inv_at m ρ K (peer c, 2)); iexact HI
  isplitl [HaB]; · iexact HaB
  isplitl [HaS]; · iexact HaS
  isplitl [HaV]; · iexact HaV
  isplitl [HaC]; · iexact HaC
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitr; · iapply (reached_at (F := F) (c, 3)); iexact HR
  isplitl [HtBP]; · iexact HtBP
  isplitl [HtVP]; · iexact HtVP
  isplitl [HtS]; · iexact HtS
  iexact HtC

omit [FloatOps F] in
/-- The tokens dealt across the pairs: a barrier token and a receive token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pair (fun c : Dev nD => (dutyTok ER (barCell c) 0 () : sProp 𝕄)),
    bigSep_univ_equiv pair (fun c : Dev nD => (dutyTok ER (recvCell c) 0 () : sProp 𝕄))]
  iintro ⟨H1, H2, H3, H4⟩
  isplitl [H1]; · iexact H1
  isplitl [H3]; · iexact H3
  isplitl [H2]; · iexact H2
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (gatherRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 4 => iprop(∃ κ : ℕ, cellInv ER (gatherRd m ρ) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (gatherRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hs0⟩, ⟨%g, Hr0⟩⟩
  isplitl [Hs]; · iexact Hs
  isplitl [Hs0]
  · iexists f; rw [sPts_eq]; iexact Hs0
  · iexists g; rw [rPts_eq]; iexact Hr0

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨⟨%f, Hs0⟩, ⟨%g, Hr0⟩, HzS, HzV, HzC⟩
  isplitr; · iempintro
  isplitl [HzS HzV HzC]
  · isplitl [HzS]; · iexact HzS
    isplitl [HzV] <;> iassumption
  isplitl [Hs0]
  · iexists f; rw [← sPts_eq]; iexact Hs0
  · iexists g; rw [← rPts_eq]; iexact Hr0

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

/-- Every window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of the program — the eight kernels shaking hands in pairs on the barrier semaphore, each copying its block
    into its own rows and sending it narrowed to its partner — terminates, and every final state has each device's
    windows' arrays at the computed contents. -/
theorem run_main : θ_run defs (onTc (τ := τ) (main (F := F))) (Protocol.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Launch.run_main' depends on axioms: [propext, Classical.choice, Quot.sound] -/
#guard_msgs in #print axioms run_main

/-- The input array after the run holds what it held. -/
theorem finalA_x (c : Dev nD) : finalA m ρ c (0 : Fin 2) = (Protocol.s₀ m ρ).mem (win0_0.arr.view.loc (c : Thread nD τ)) :=
  (dats (F := F) m ρ 0 c).arrAt_in (0 : Fin 2) rfl _

end Cert.Kernel.Launch

end
-- ==== Proof.Bits.Final.lean ====
/-
  What the two windowed arrays hold after the run, read off the pipeline's proof data.

  The pallas_call has no grid: one point, and each window is its whole array as one block at block index 0. The
  input window is never written back, so the device's block of the argument ends as it was at launch. The result
  window is written back at the one point, and that write-back moves the whole staging buffer over the whole
  array: every index of the array lies in the block, and the block read out of any contents of the array is
  those contents. So the result array ends holding exactly what the body left in the staging buffer.
-/
import proofs.«900666_g7700000000000667_dist_ag_v7x_xyz2x2x2_y_m256_n256_f32_1_alg».proof.Proof.Bits.Protocol
import proofs.«900666_g7700000000000667_dist_ag_v7x_xyz2x2x2_y_m256_n256_f32_1_alg».proof.Proof.Gen.Kernel.Points
import Idealize.ShloMosaic.Lib.Pipeline.Value

noncomputable section

namespace Cert.Kernel.Final

open Cert.Kernel Cert.Kernel.Gen Cert.Kernel.Spec Cert.Kernel.Protocol

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- An input window's array is never written back: after the run the device's block of the argument holds what it
    held at launch. -/
theorem final_x (c : Dev nD) : (dats m ρ 0 c).arrAt (0 : Fin 2) cfg0.N = m ((c : Thread nD τ).loc main_arg0) :=
  (dats m ρ 0 c).arrAt_in (0 : Fin 2) rfl _

/-- What the body leaves in the result's staging buffer, at any point: the gathered result. -/
theorem after_out (c : Dev nD) (t : Fin cfg0.N) : (dats m ρ 0 c).after (1 : Fin 2) t = outAt m ρ c := by
  unfold dats
  generalize outAt m ρ c = G
  rfl

/-- The window is not cut, so the write-back moves all of the staging buffer: the moved part is the contents
    themselves (an index of the moved part is, coordinate by coordinate, the same index of the block). -/
theorem flushed_out (c : Dev nD) (t : Fin cfg0.N) : (dats m ρ 0 c).flushed (1 : Fin 2) t = outAt m ρ c := by
  funext j
  exact congrFun (after_out m ρ c t) _

/-- The result window's block starts at the array's origin: its block index is zero on both axes. -/
theorem off_zero (t : Fin cfg0.N) : (fun a => win0_1.index t a * win0_1.size a) = fun _ => 0 :=
  funext fun a => Nat.zero_mul _

/-- The block is the whole array: read out of contents `G` of the array it is `G`. -/
theorem read_blk (t : Fin cfg0.N) (G : (cc0_stg1_0 : Ref sig .tc).ty.Contents (Elt F)) :
    View.read (Elt F) ((cfg0.win (1 : Fin 2)).blk t).view G = G :=
  Memref.read_access_unit_zero (Elt F) main_v1 (off_zero t)
    (fun a => by rw [congrFun (off_zero t) a]; exact Nat.le_of_eq (Nat.zero_add _)) G

/-- Every index of the array lies in the block: on each axis the block runs from 0 over the array's full extent. -/
theorem mem_blk (t : Fin cfg0.N) (i : (main_v1 : Ref sig .tc).ty.shape.Idx) : i ∈ ((cfg0.win (1 : Fin 2)).blk t).view.set := by
  show i ∈ ((View.whole main_v1).slice (win0_1.rect t)).set
  rw [View.set_slice_whole, Rect.mem_set_unit]
  intro a
  rw [congrFun (off_zero t) a]
  exact ⟨Nat.zero_le _, by rw [Nat.zero_add]; exact (i a).isLt⟩

/-- The one point writes the whole staging buffer over the whole result array: it ends holding what the body
    left there — the device's own block in its own rows, its partner's, narrowed and widened back, in the others. -/
theorem final_out (c : Dev nD) : (dats m ρ 0 c).arrAt (1 : Fin 2) cfg0.N = outAt m ρ c :=
  (dats m ρ 0 c).arrAt_eq_of_cover (1 : Fin 2) (outAt m ρ c)
    (fun t _ => (flushed_out m ρ c t).trans (read_blk t (outAt m ρ c)).symm)
    (fun i => ⟨t₀, flush0_1 t₀, mem_blk t₀ i⟩)

/-- info: 'Cert.Kernel.Final.final_out' depends on axioms: [propext, Classical.choice, Quot.sound] -/
#guard_msgs in #print axioms final_out

/-- info: 'Cert.Kernel.Final.final_x' depends on axioms: [propext, Classical.choice, Quot.sound] -/
#guard_msgs in #print axioms final_x

end Cert.Kernel.Final

end
-- ==== Proof.lean ====
/-
  The all-gather along the second axis of a 2 × 2 × 2 mesh, against the identity on one device.

  Eight devices at mesh coordinates (x, y, z); a device holds rows [256·y, 256·y + 256) of a 512 × 256 f32 array.
  Each device copies its block into its own rows of its result, narrows the block to bf16 and sends it to its partner
  at (x, 1 − y, z) after an entry handshake on the barrier semaphore, and stores what it receives, widened back to
  f32, into the other rows. Over the extended reals a change of float format is the identity, so every device's
  result is the two blocks laid at their row offsets: the whole array, which is what the reference returns.

  The three frames are runs with the values dropped: the two kernel programs' from the run of the whole mesh (the
  protocol under the rounds discipline, one device's body stepped once at a symbolic device, the launch that
  allocates every device's four cells at once), the reference's from the run of a program that returns at once. No
  rewrite was applied when the idealized kernel was printed, so there is nothing to preserve. The algebraic conjunct
  joins each device's result — its own block and its partner's, by the index lemmas of the two row ranges — to the
  reference's whole array through the block layout of the mesh.
-/
import proofs.«900666_g7700000000000667_dist_ag_v7x_xyz2x2x2_y_m256_n256_f32_1_alg».proof.Defs
import proofs.«900666_g7700000000000667_dist_ag_v7x_xyz2x2x2_y_m256_n256_f32_1_alg».proof.Proof.Gen.Kernel
import proofs.«900666_g7700000000000667_dist_ag_v7x_xyz2x2x2_y_m256_n256_f32_1_alg».proof.Proof.Gen.KernelIdeal
import proofs.«900666_g7700000000000667_dist_ag_v7x_xyz2x2x2_y_m256_n256_f32_1_alg».proof.Proof.Gen.ReferenceIdeal
import proofs.«900666_g7700000000000667_dist_ag_v7x_xyz2x2x2_y_m256_n256_f32_1_alg».proof.Proof.Gen.Pre_finite_inputs_Kernel
import proofs.«900666_g7700000000000667_dist_ag_v7x_xyz2x2x2_y_m256_n256_f32_1_alg».proof.Proof.Gen.Pre_finite_inputs_ReferenceIdeal
import proofs.«900666_g7700000000000667_dist_ag_v7x_xyz2x2x2_y_m256_n256_f32_1_alg».proof.Proof.Launch
import proofs.«900666_g7700000000000667_dist_ag_v7x_xyz2x2x2_y_m256_n256_f32_1_alg».proof.Proof.Final
import proofs.«900666_g7700000000000667_dist_ag_v7x_xyz2x2x2_y_m256_n256_f32_1_alg».proof.Proof.Gather
import proofs.«900666_g7700000000000667_dist_ag_v7x_xyz2x2x2_y_m256_n256_f32_1_alg».proof.Proof.RefRun
import proofs.«900666_g7700000000000667_dist_ag_v7x_xyz2x2x2_y_m256_n256_f32_1_alg».proof.Proof.Bits.Launch
import proofs.«900666_g7700000000000667_dist_ag_v7x_xyz2x2x2_y_m256_n256_f32_1_alg».proof.Proof.Bits.Final
import Idealize.ShloMosaic.Adequacy
import Idealize.ShloMosaic.Init

noncomputable section

namespace Cert.Proof

open Idealize.ShloMosaic Idealize.SL.Sem

/-- The word-level kernel runs and leaves its argument as it was. -/
theorem frame_p : Cert.frame_Kernel := fun m g _ =>
  (θ_run (Cert.Kernel.defs (F := Bits)) _ _).mono
    (fun r h c => (h c (0 : Fin 2)).trans (Cert.Kernel.Final.final_x m g c))
    (Cert.Kernel.Launch.run_main (F := Bits) m g)

/-- The idealized kernel runs and leaves its argument as it was. -/
theorem frame_pi : Cert.frame_KernelIdeal := fun m g _ =>
  (θ_run (Cert.KernelIdeal.defs (F := Ideal)) _ _).mono
    (fun r h c => (h c (0 : Fin 2)).trans (Cert.KernelIdeal.Final.final_x m g c))
    (Cert.KernelIdeal.Launch.run_main (F := Ideal) m g)

/-- The reference returns at once. -/
theorem frame_ri : Cert.frame_ReferenceIdeal := fun m g _ => Cert.ReferenceIdeal.RefRun.run (F := Ideal) m g

open Cert.KernelIdeal Cert.KernelIdeal.Spec Cert.KernelIdeal.Protocol in
/-- The input window's one block starts at the array's origin. -/
theorem block_origin : (fun a => win0_0.index (0 : Fin 1) a * win0_0.size a) = fun _ => 0 := funext fun a => Nat.zero_mul _

open Cert.KernelIdeal Cert.KernelIdeal.Spec Cert.KernelIdeal.Protocol in
/-- The staged input is the device's whole argument buffer: the window's one block is the whole array. -/
theorem staged_eq (m : (ℓ : Loc Cert.KernelIdeal.nD Cert.KernelIdeal.τ Cert.KernelIdeal.sig) → Buf (Elt Ideal) ℓ) (g : Dev Cert.KernelIdeal.nD → PrngReg)
    (c : Dev Cert.KernelIdeal.nD) :
    xstg (F := Ideal) m g c = m ((c.tc : Thread Cert.KernelIdeal.nD Cert.KernelIdeal.τ).loc Cert.KernelIdeal.main_arg0) := by
  unfold xstg
  exact Memref.read_access_unit_zero (Elt Ideal) Cert.KernelIdeal.main_arg0 block_origin
    (fun a => by rw [congrFun block_origin a]; exact Nat.le_of_eq (Nat.zero_add _)) _

open Cert.KernelIdeal Cert.KernelIdeal.Spec Cert.KernelIdeal.Protocol in
/-- A device's result is the whole array when every device's staged block is its block of that array: the own rows
    hold the device's block, the other rows its partner's, and the two blocks at their offsets are the array. -/
theorem out_whole (m : (ℓ : Loc Cert.KernelIdeal.nD Cert.KernelIdeal.τ Cert.KernelIdeal.sig) → Buf (Elt Ideal) ℓ) (g : Dev Cert.KernelIdeal.nD → PrngReg)
    (X : (⟨2, ![512, 256]⟩ : Shape).Idx → Elt Ideal .f32)
    (hblk : ∀ c : Dev Cert.KernelIdeal.nD, m ((c.tc : Thread Cert.KernelIdeal.nD Cert.KernelIdeal.τ).loc Cert.KernelIdeal.main_arg0)
      = Layout.blockN ⟨2, ![256, 256]⟩ ⟨2, ![512, 256]⟩ (Layout.meshBlock [2, 2, 2] ![[1], []] c) X)
    (c : Dev Cert.KernelIdeal.nD) : outAt (F := Ideal) m g c = X := by
  have hx : ∀ d : Dev Cert.KernelIdeal.nD, xstg (F := Ideal) m g d
      = Layout.blockN ⟨2, ![256, 256]⟩ ⟨2, ![512, 256]⟩ (Layout.meshBlock [2, 2, 2] ![[1], []] d) X := fun d =>
    (staged_eq m g d).trans (hblk d)
  unfold outAt
  rw [hx c, hx (peer c)]
  exact gathered_whole c X _

/-- Both idealized programs run; the reference's result is its argument, and every device's result is that array. -/
theorem algebraic : Cert.algebraic_KernelIdeal_ReferenceIdeal := by
  intro m g m' g' _ hblk
  refine ⟨m' (((0 : Dev Cert.ReferenceIdeal.nD).tc : Thread Cert.ReferenceIdeal.nD Cert.ReferenceIdeal.τ).loc Cert.ReferenceIdeal.main_arg0), ?_, ?_⟩
  · refine (θ_run (Cert.KernelIdeal.defs (F := Ideal)) _ _).mono (fun r h c => ⟨?_, ?_⟩) (Cert.KernelIdeal.Launch.run_main (F := Ideal) m g)
    · exact ((h c (1 : Fin 2)).trans (Cert.KernelIdeal.Final.final_out m g c)).trans (out_whole m g _ hblk c)
    · exact (h c (0 : Fin 2)).trans (Cert.KernelIdeal.Final.final_x m g c)
  · exact (θ_run (Cert.ReferenceIdeal.defs (F := Ideal)) _ _).mono (fun r h => ⟨h 0, h 0⟩) (Cert.ReferenceIdeal.RefRun.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, trivial, algebraic⟩

end Cert.Proof

end
